-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_c_20 : IVec S_ 32 := constantI S_ 32 0#32
  let main_v54 : IVec S2x1600000 32 := broadcastInDim S2x1600000 ![] bcast_S_S2x1600000 main_c_20
  let main_v55 : IVec S2x1600000 1 := cmpi .sge main_arg1 main_v54
  let main_c_21 : IVec S_ 1 := constantI S_ 1 1#1
  let main_v56 : IVec S_ 1 := (fun x v => Host.reduce IntOp.andi x v reducesTo_S2x1600000_S_d0_1 h_S_) main_v55 main_c_21
  let main_v57 : IVec S_ 1 := andi main_v53 main_v56
  let main_c_22 : IVec S_ 32 := constantI S_ 32 100000#32
  let main_v58 : IVec S2x1600000 32 := broadcastInDim S2x1600000 ![] bcast_S_S2x1600000 main_c_22
  let main_v59 : IVec S2x1600000 1 := cmpi .slt main_arg1 main_v58
  let main_c_23 : IVec S_ 1 := constantI S_ 1 1#1
  let main_v60 : IVec S_ 1 := (fun x v => Host.reduce IntOp.andi x v reducesTo_S2x1600000_S_d0_1 h_S_) main_v59 main_c_23
  let main_v61 : IVec S_ 1 := andi main_v57 main_v60
  main_v61

def fn_part2 {F : FTy → Type} [FloatOps F] (main_arg1 : IVec S2x1600000 32) (main_arg8 : FVec F S64x128 .f32) (main_arg9 : FVec F S64 .f32) (main_arg10 : FVec F S2x64 .f32) (main_arg11 : FVec F S2 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg1 main_v48 main_v49 main_v50

def fn_part1 {F : FTy → Type} [FloatOps F] (main_arg1 : IVec S2x1600000 32) (main_arg5 : FVec F S64x128 .f32) (main_arg6 : FVec F S64 .f32) (main_arg7 : FVec F S64x128 .f32) (main_arg8 : FVec F S64x128 .f32) (main_arg9 : FVec F S64 .f32) (main_arg10 : FVec F S2x64 .f32) (main_arg11 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) (main_arg8 : FVec F S64x128 .f32) (main_arg9 : FVec F S64 .f32) (main_arg10 : FVec F S2x64 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩
abbrev S1x2 : Shape := ⟨2, ![1, 2]⟩
abbrev S1600000x2 : Shape := ⟨2, ![1600000, 2]⟩
abbrev S16000x128 : Shape := ⟨2, ![16000, 128]⟩
abbrev S16000x2 : Shape := ⟨2, ![16000, 2]⟩
abbrev S16000x64 : Shape := ⟨2, ![16000, 64]⟩
abbrev S64x2 : Shape := ⟨2, ![64, 2]⟩

abbrev nBuf : Space → Nat
  | .hbm => 148
  | .vmem => 26
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128, .f32⟩
  | 4 => ⟨S128x64, .f32⟩
  | 5 => ⟨S64x128, .f32⟩
  | 6 => ⟨S64, .f32⟩
  | 7 => ⟨S64x128, .f32⟩
  | 8 => ⟨S64x128, .f32⟩
  | 9 => ⟨S64, .f32⟩
  | 10 => ⟨S2x64, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1, .i32⟩
  | 25 => ⟨S_, .i32⟩
  | 26 => ⟨S1600000x1, .i32⟩
  | 27 => ⟨S1600000x1, .i1⟩
  | 28 => ⟨S1x1, .i32⟩
  | 29 => ⟨S1600000x1, .i32⟩
  | 30 => ⟨S1600000x1, .i1⟩
  | 31 => ⟨S1600000x1, .i1⟩
  | 32 => ⟨S_, .i1⟩
  | 33 => ⟨S1600000, .i1⟩
  | 34 => ⟨S1600000x64, .f32⟩
  | 35 => ⟨S1600000x64, .i1⟩
  | 36 => ⟨S_, .f32⟩
  | 37 => ⟨S1600000x64, .f32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S_, .f32⟩
  | 44 => ⟨S1600000, .f32⟩
  | 45 => ⟨S_, .f32⟩
  | 46 => ⟨S100000, .f32⟩
  | 47 => ⟨S1600000x1, .i32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x64, .f32⟩
  | 54 => ⟨S100000x64, .f32⟩
  | 55 => ⟨S1x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1, .i32⟩
  | 66 => ⟨S_, .i32⟩
  | 67 => ⟨S1600000x1, .i32⟩
  | 68 => ⟨S1600000x1, .i1⟩
  | 69 => ⟨S1x1, .i32⟩
  | 70 => ⟨S1600000x1, .i32⟩
  | 71 => ⟨S1600000x1, .i1⟩
  | 72 => ⟨S1600000x1, .i1⟩
  | 73 => ⟨S_, .i1⟩
  | 74 => ⟨S1600000, .i1⟩
  | 75 => ⟨S1600000x128, .f32⟩
  | 76 => ⟨S1600000x128, .i1⟩
  | 77 => ⟨S_, .f32⟩
  | 78 => ⟨S1600000x128, .f32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .f32⟩
  | 93 => ⟨S100000x1, .f32⟩
  | 94 => ⟨S100000x128, .f32⟩
  | 95 => ⟨S100000x128, .f32⟩
  | 96 => ⟨S1x64, .f32⟩
  | 97 => ⟨S100000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1, .i32⟩
  | 107 => ⟨S_, .i32⟩
  | 108 => ⟨S1600000x1, .i32⟩
  | 109 => ⟨S1600000x1, .i1⟩
  | 110 => ⟨S1x1, .i32⟩
  | 111 => ⟨S1600000x1, .i32⟩
  | 112 => ⟨S1600000x1, .i1⟩
  | 113 => ⟨S1600000x1, .i1⟩
  | 114 => ⟨S_, .i1⟩
  | 115 => ⟨S1600000, .i1⟩
  | 116 => ⟨S1600000x64, .f32⟩
  | 117 => ⟨S1600000x64, .i1⟩
  | 118 => ⟨S_, .f32⟩
  | 119 => ⟨S1600000x64, .f32⟩
  | 120 => ⟨S1600000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_1 (i : Nat) : BufTy := match i % 128 with
  | 0 => ⟨S1600000x1, .i32⟩
  | 1 => ⟨S1, .i32⟩
  | 2 => ⟨S_, .i32⟩
  | 3 => ⟨S1600000x1, .i32⟩
  | 4 => ⟨S1600000x1, .i1⟩
  | 5 => ⟨S1x1, .i32⟩
  | 6 => ⟨S1600000x1, .i32⟩
  | 7 => ⟨S1600000x1, .i1⟩
  | 8 => ⟨S1600000x1, .i1⟩
  | 9 => ⟨S_, .i1⟩
  | 10 => ⟨S1600000, .i1⟩
  | 11 => ⟨S1600000x64, .f32⟩
  | 12 => ⟨S1600000x64, .i1⟩
  | 13 => ⟨S_, .f32⟩
  | 14 => ⟨S1600000x64, .f32⟩
  | 15 => ⟨S1600000x64, .f32⟩
  | 16 => ⟨S1600000x128, .f32⟩
  | 17 => ⟨S1x64, .f32⟩
  | 18 => ⟨S1x2, .f32⟩
  | 19 => ⟨S1600000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128x64, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S64x128, .f32⟩
  | .local _ .vmem, ⟨14, _⟩ => ⟨S64x128, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S16000x128, .f32⟩
  | .local _ .vmem, ⟨19, _⟩ => ⟨S16000x128, .f32⟩
  | .local _ .vmem, ⟨20, _⟩ => ⟨S64x128, .f32⟩
  | .local _ .vmem, ⟨21, _⟩ => ⟨S1x64, .f32⟩
  | .local _ .vmem, ⟨22, _⟩ => ⟨S2x64, .f32⟩
  | .local _ .vmem, ⟨23, _⟩ => ⟨S1x2, .f32⟩
  | .local _ .vmem, ⟨24, _⟩ => ⟨S16000x2, .f32⟩
  | .local _ .vmem, ⟨25, _⟩ => ⟨S16000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v19 : Ref sig .tc := ⟨.hbm, 79, rfl⟩
abbrev main_cst_3 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_4 : Ref sig .tc := ⟨.hbm, 84, rfl⟩
abbrev main_v23 : Ref sig .tc := ⟨.hbm, 85, rfl⟩
abbrev main_cst_5 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_6 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v34 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S1600000x64_S1600000x64_S1600000x128_d1 : Shape.Concatenates [S1600000x64, S1600000x64] S1600000x128 1
  shapeCasts_S2_S1x2 : S2.ShapeCasts S1x2
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S1x64_S16000x64 : S1x64.Broadcasts S16000x64
  inb_S2x64_S2x64_0_0 : ∀ a, (![0, 0] : Fin 2 → Nat) a + S2x64.size a ≤ S2x64.size a
  h_S2x64 : 0 < S2x64.numel
  transposes_S2x64_p1_0_S64x2 : S2x64.Transposes [1, 0] S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16000x2 : S1x2.Broadcasts S16000x2
  inb_S16000x2_S16000x2_0_0 : ∀ a, (![0, 0] : Fin 2 → Nat) a + S16000x2.size a ≤ S16000x2.size a
  h_S16000x2 : 0 < S16000x2.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S16000x128_S128x64_S16000x64_1_0_0_1_n_n_wf : DotDims.WF S16000x128 S128x64 S16000x64 [1] [0] [0] [1] [] []
  dot_S16000x64_S64x2_S16000x2_1_0_0_1_n_n_wf : DotDims.WF S16000x64 S64x2 S16000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x128.size a ≤ S1600000x128.size a
  hwx2_0 : ∀ i : grid2.Coords, EltTy.bits .f32 = 32 ∨ (Rect.block (s := S1600000x128) S16000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x64.size a ≤ S2x64.size a
  hwx2_3 : ∀ i : grid2.Coords, EltTy.bits .f32 = 32 ∨ (Rect.block (s := S2x64) S2x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16000x2.size a ≤ S1600000x2.size a
  hwx2_5 : ∀ i : grid2.Coords, EltTy.bits .f32 = 32 ∨ (Rect.block (s := S1600000x2) S16000x2.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x2_S16000x2_1_0_0_1_n_n : DotDims S16000x64 S64x2 S16000x2 where
  lhsContracting := [1]
  rhsContracting := [0]
  lhsNonContracting := [0]
  rhsNonContracting := [1]
  lhsBatch := []
  rhsBatch := []
  wf := dot_S16000x64_S64x2_S16000x2_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S16000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S2x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S16000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S64x2 : Shape := ⟨2, ![64, 2]⟩
abbrev S1600000x2 : Shape := ⟨2, ![1600000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S64x128, .f32⟩
  | .hbm, ⟨9, _⟩ => ⟨S64, .f32⟩
  | .hbm, ⟨10, _⟩ => ⟨S2x64, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S64x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S128x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x128, .f32⟩
  | .hbm, ⟨107, _⟩ => ⟨S128x64, .f32⟩
  | .hbm, ⟨108, _⟩ => ⟨S1600000x64, .f32⟩
  | .hbm, ⟨109, _⟩ => ⟨S1x64, .f32⟩
  | .hbm, ⟨110, _⟩ => ⟨S1600000x64, .f32⟩
  | .hbm, ⟨111, _⟩ => ⟨S1600000x64, .f32⟩
  | .hbm, ⟨112, _⟩ => ⟨S_, .f32⟩
  | .hbm, ⟨113, _⟩ => ⟨S1600000x64, .f32⟩
  | .hbm, ⟨114, _⟩ => ⟨S1600000x64, .f32⟩
  | .hbm, ⟨115, _⟩ => ⟨S64x2, .f32⟩
  | .hbm, ⟨116, _⟩ => ⟨S1600000x2, .f32⟩
  | .hbm, ⟨117, _⟩ => ⟨S1x2, .f32⟩
  | .hbm, ⟨118, _⟩ => ⟨S1600000x2, .f32⟩
  | .hbm, ⟨119, _⟩ => ⟨S1600000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S2x64_S64x2_1_0 : S2x64.Transposes [1, 0] S64x2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S1600000x128_S128x64_S1600000x64_1_0_0_1_n_n_wf : DotDims.WF S1600000x128 S128x64 S1600000x64 [1] [0] [0] [1] [] []
  dot_S1600000x64_S64x2_S1600000x2_1_0_0_1_n_n_wf : DotDims.WF S1600000x64 S64x2 S1600000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf

class Facts : Prop extends Facts₀ where

variable [Facts]
-- ==== Proof.TakeMask.lean ====
/-
  An index word w with 0 ≤ w < 100000 (signed) passes a take's range test, and NumPy's wrap of negative indices
  leaves it alone: w < 0 is false, so the wrapped word is w itself, and 0 ≤ w ≤ 99999 holds. A reduction by "and"
  that starts at 1 and meets only 1s is 1: so the row mask of such a take is all ones.
-/
import Idealize.ShloMosaic.Lib.ReduceAll
import Idealize.ShloMosaic.Lib.ValueIdx
import Idealize.ShloMosaic.Lib.StableHlo.Predicate
import Idealize.ShloMosaic.PureOps.Reduce

noncomputable section

namespace Cert.TakeMask

open Idealize.ShloMosaic

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, IntOp.andi_eq_one.2 ⟨rfl, h a List.mem_cons_self⟩]
    exact foldl_andi_one f l (fun n hn => h n (List.mem_cons_of_mem _ hn))

/-- A reduce by "and" whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x _ (fun n _ => hx n)

/-- A node id: a word in [0, 100000), read signed. -/
def InRange (a : BitVec 32) : Prop := IntOp.cmpi .sge a 0#32 = 1#1 ∧ IntOp.cmpi .slt a 100000#32 = 1#1

theorem toInt_bounds {a : BitVec 32} (h : InRange a) : 0 ≤ a.toInt ∧ a.toInt < 100000 := by
  obtain ⟨h0, h1⟩ := h
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (100000#32 : BitVec 32).toInt = 100000 := by decide
  rw [e0] at h0; rw [e1] at h1
  exact ⟨h0, h1⟩

/-- Not negative. -/
theorem not_neg {a : BitVec 32} (h : InRange a) : IntOp.cmpi .slt a 0#32 = 0#1 := by
  have hb := toInt_bounds h
  unfold IntOp.cmpi
  have e0 : (0#32 : BitVec 32).toInt = 0 := by decide
  have : a.slt 0#32 = false := by
    simp only [BitVec.slt, e0, decide_eq_false_iff_not, not_lt]; exact hb.1
  rw [this]; rfl

/-- At least 0 (the take's lower test). -/
theorem ge_zero {a : BitVec 32} (h : InRange a) : IntOp.cmpi .sge a 0#32 = 1#1 := h.1

/-- At most 99999 (the take's upper test). -/
theorem le_last {a : BitVec 32} (h : InRange a) : IntOp.cmpi .sle a 99999#32 = 1#1 := by
  have hb := toInt_bounds h
  unfold IntOp.cmpi
  have e1 : (99999#32 : BitVec 32).toInt = 99999 := by decide
  have : a.sle 99999#32 = true := by
    simp only [BitVec.sle, e1, decide_eq_true_eq]; omega
  rw [this]; rfl

end Cert.TakeMask

end
-- ==== Proof.KernelHost.lean ====
/-
  The host side of the kernel program, read as values.

  Between its three dense stages the program gathers node rows by the edges' source ids (a take: NumPy's wrap of a
  negative id, a range test 0 ≤ id ≤ 99999 per row, the gathered row where the test passes and a fill elsewhere),
  sums them into the destination nodes, counts each node's incoming edges and divides: the neighbour mean. When every
  id is a node id the range test passes on every row, so the take is the plain gather of the wrapped ids.
-/
import proofs.«416496_j25366076850454_1_alg».proof.Proof.Gen.KernelIdeal.Frame
import proofs.«416496_j25366076850454_1_alg».proof.Proof.TakeMask
import Idealize.ShloMosaic.Lib.StableHlo.Run
import Idealize.ShloMosaic.Lib.ValueIdx

noncomputable section

namespace Cert.KernelIdeal.Host

open Cert.KernelIdeal Cert.KernelIdeal.Gen Cert.TakeMask
open Idealize.ShloMosaic Idealize.ShloMosaic.TcCoe Idealize.SL.Sem Idealize.ShloMosaic.StableHlo

variable {F : FTy → Type} [FloatOps F]

/-! ## The take -/

/-- NumPy's wrap of a negative id: id + 100000 where id < 0. -/
def wrap (idx : IVec S1600000 32) : IVec S1600000 32 :=
  select (cmpi .slt idx (broadcastInDim S1600000 ![] bcast_S_S1600000 (constantI S_ 32 0#32)))
    (addi idx (broadcastInDim S1600000 ![] bcast_S_S1600000 (constantI S_ 32 100000#32))) idx

/-- The wrapped ids as a column of start indices. -/
def col (idx : IVec S1600000 32) : IVec S1600000x1 32 :=
  broadcastInDim S1600000x1 ![0] bcast_S1600000_S1600000x1_0 (wrap idx)

/-- The range test of each row: 0 ≤ wrapped id ≤ 99999. -/
def mask (idx : IVec S1600000 32) : IVec S1600000 1 :=
  Host.reduce IntOp.andi
    (andi (cmpi .sge (col idx) (broadcastInDim S1600000x1 ![] bcast_S_S1600000x1 (constantI S_ 32 0#32)))
      (cmpi .sle (col idx) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- A node id is not wrapped. -/
theorem wrap_eq (idx : IVec S1600000 32) (h : ∀ e, InRange (idx e)) : wrap idx = idx := by
  funext e
  show Scalar.select (IntOp.cmpi .slt (idx e) 0#32) (IntOp.addi (idx e) 100000#32) (idx e) = idx e
  rw [not_neg (h e)]; exact ValueIdx.select_zero _ _

/-- Node ids pass the range test on every row. -/
theorem mask_one (idx : IVec S1600000 32) (h : ∀ e, InRange (idx e)) (e : S1600000.Idx) : mask idx e = 1#1 := by
  unfold mask
  refine reduce_andi_of_all _ _ _ _ rfl (fun i => ?_) e
  have hr : InRange (col idx i) := by
    unfold col; rw [wrap_eq idx h]; exact h _
  exact IntOp.andi_eq_one.2 ⟨ge_zero hr, le_last hr⟩

/-- Rows of 64 features taken by id. -/
def take64 (x : FVec F S100000x64 .f32) (idx : IVec S1600000 32) : FVec F S1600000x64 .f32 :=
  select (broadcastInDim S1600000x64 ![0] bcast_S1600000_S1600000x64_0 (mask idx))
    (Host.gather gather_S100000x64_S1600000x1_S1600000x64_1_0_n_n_0_1_164 x (col idx))
    (broadcastInDim S1600000x64 ![] bcast_S_S1600000x64 (constant S_ .f32 0x7FC00000#32))

/-- Rows of 128 features taken by id. -/
def take128 (x : FVec F S100000x128 .f32) (idx : IVec S1600000 32) : FVec F S1600000x128 .f32 :=
  select (broadcastInDim S1600000x128 ![0] bcast_S1600000_S1600000x128_0 (mask idx))
    (Host.gather gather_S100000x128_S1600000x1_S1600000x128_1_0_n_n_0_1_1128 x (col idx))
    (broadcastInDim S1600000x128 ![] bcast_S_S1600000x128 (constant S_ .f32 0x7FC00000#32))

/-- With node ids the take is the gather. -/
theorem take64_eq (x : FVec F S100000x64 .f32) (idx : IVec S1600000 32) (h : ∀ e, InRange (idx e)) :
    take64 x idx = Host.gather gather_S100000x64_S1600000x1_S1600000x64_1_0_n_n_0_1_164 x (col idx) := by
  funext j
  unfold take64
  show Scalar.select (mask idx _) _ _ = _
  rw [mask_one idx h]; exact ValueIdx.select_one _ _

theorem take128_eq (x : FVec F S100000x128 .f32) (idx : IVec S1600000 32) (h : ∀ e, InRange (idx e)) :
    take128 x idx = Host.gather gather_S100000x128_S1600000x1_S1600000x128_1_0_n_n_0_1_1128 x (col idx) := by
  funext j
  unfold take128
  show Scalar.select (mask idx _) _ _ = _
  rw [mask_one idx h]; exact ValueIdx.select_one _ _

/-! ## The edge list's two rows -/

def srcOf (ei : IVec S2x1600000 32) : IVec S1600000 32 :=
  shapeCast S1600000 (extractStridedSlice S1x1600000 ![0, 0] ei slices_S2x1600000_S1x1600000_0_0) shapeCasts_S1x1600000_S1600000
def dstOf (ei : IVec S2x1600000 32) : IVec S1600000 32 :=
  shapeCast S1600000 (extractStridedSlice S1x1600000 ![1, 0] ei slices_S2x1600000_S1x1600000_1_0) shapeCasts_S1x1600000_S1600000

/-! ## The neighbour mean -/

/-- Messages of 64 features summed into their destination nodes, over each node's edge count (at least 1). -/
def mean64 (msg : FVec F S1600000x64 .f32) (dst : IVec S1600000 32) : FVec F S100000x64 .f32 :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst) msg)
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- Messages of 128 features summed into their destination nodes, over each node's edge count (at least 1). -/
def mean128 (msg : FVec F S1600000x128 .f32) (dst : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst) msg)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- An edge's features: its source's 64 then its destination's 64. -/
def edgeFeatures (a b : FVec F S1600000x64 .f32) : FVec F S1600000x128 .f32 :=
  concatenate S1600000x128 1 [⟨S1600000x64, a⟩, ⟨S1600000x64, b⟩] concatenates_S1600000x64_S1600000x64_S1600000x128_d1

/-! ## A bias vector as a one-row matrix -/

def row128 (b : FVec F S128 .f32) : FVec F S1x128 .f32 := shapeCast S1x128 b shapeCasts_S128_S1x128
def row64 (b : FVec F S64 .f32) : FVec F S1x64 .f32 := shapeCast S1x64 b shapeCasts_S64_S1x64
def row2 (b : FVec F S2 .f32) : FVec F S1x2 .f32 := shapeCast S1x2 b shapeCasts_S2_S1x2

/-! ## Contents read at a buffer's own type -/

/-- Contents carried to a buffer's own type and back are the contents. -/
theorem ofBuf_toBuf {T : BufTy} (r : Ref sig .tc) (h h' : r.ty = T) (d d' : r.space ≠ .host) (u u' : r.isScoped = false)
    (v : T.Contents (Elt F)) :
    (TRef.mk r h d u : TRef sig T).ofBuf ((TRef.mk r h' d' u' : TRef sig T).toBuf v) = v := by
  subst h; rfl

theorem rd_v1 (W : Valuation τ sig (Elt F)) :
    (TRef.of main_v1 : TRef sig ⟨S1600000, .i32⟩).ofBuf (W (Proc.devRef .tc main_v1)) = W (Proc.devRef .tc main_v1) := rfl
theorem rd_v3 (W : Valuation τ sig (Elt F)) :
    (TRef.of main_v3 : TRef sig ⟨S1600000, .i32⟩).ofBuf (W (Proc.devRef .tc main_v3)) = W (Proc.devRef .tc main_v3) := rfl
theorem rd_arg0 (W : Valuation τ sig (Elt F)) :
    (TRef.of main_arg0 : TRef sig ⟨S100000x64, .f32⟩).ofBuf (W (Proc.devRef .tc main_arg0)) = W (Proc.devRef .tc main_arg0) := rfl
theorem rd_v18 (W : Valuation τ sig (Elt F)) :
    (TRef.of main_v18 : TRef sig ⟨S100000x128, .f32⟩).ofBuf (W (Proc.devRef .tc main_v18)) = W (Proc.devRef .tc main_v18) := rfl
theorem rd_v33 (W : Valuation τ sig (Elt F)) :
    (TRef.of main_v33 : TRef sig ⟨S100000x64, .f32⟩).ofBuf (W (Proc.devRef .tc main_v33)) = W (Proc.devRef .tc main_v33) := rfl
theorem wr_v4 (v : FVec F S1600000x64 .f32) : (TRef.of main_v4 : TRef sig ⟨S1600000x64, .f32⟩).toBuf (Val := Elt F) v = v := rfl
theorem wr_v19 (v : FVec F S1600000x128 .f32) : (TRef.of main_v19 : TRef sig ⟨S1600000x128, .f32⟩).toBuf (Val := Elt F) v = v := rfl
theorem wr_v34 (v : FVec F S1600000x64 .f32) : (TRef.of main_v34 : TRef sig ⟨S1600000x64, .f32⟩).toBuf (Val := Elt F) v = v := rfl
theorem wr_v35 (v : FVec F S1600000x64 .f32) : (TRef.of main_v35 : TRef sig ⟨S1600000x64, .f32⟩).toBuf (Val := Elt F) v = v := rfl

set_option maxHeartbeats 1000000

/-! ## What each host stretch writes, from any contents W -/

/-- The edge list's source row. -/
theorem s0_v1 (W : Valuation τ sig (Elt F)) :
    StableHlo.after hostOps0 W (Proc.devRef .tc main_v1) = srcOf (W (Proc.devRef .tc main_arg1)) := by
  simp only [hostOps0]; after_results_simp; rfl
/-- The edge list's destination row. -/
theorem s0_v3 (W : Valuation τ sig (Elt F)) :
    StableHlo.after hostOps0 W (Proc.devRef .tc main_v3) = dstOf (W (Proc.devRef .tc main_arg1)) := by
  simp only [hostOps0]; after_results_simp; rfl

/-- The node features taken by source id. -/
theorem s01_v4 (W : Valuation τ sig (Elt F)) :
    StableHlo.after hostOps0_1 W (Proc.devRef .tc main_v4) = take64 (W (Proc.devRef .tc main_arg0)) (W (Proc.devRef .tc main_v1)) := by
  simp only [hostOps0_1]; after_results_simp
  simp only [ofBuf_toBuf, rd_v1, rd_arg0, wr_v4]
  unfold take64 mask col wrap; rfl

/-- Their neighbour mean. -/
theorem s02_v16 (W : Valuation τ sig (Elt F)) :
    StableHlo.after hostOps0_2 W (Proc.devRef .tc main_v16) = mean64 (W (Proc.devRef .tc main_v4)) (W (Proc.devRef .tc main_v3)) := by
  simp only [hostOps0_2]; after_results_simp; rfl
/-- The first layer's bias as a row. -/
theorem s02_v17 (W : Valuation τ sig (Elt F)) :
    StableHlo.after hostOps0_2 W (Proc.devRef .tc main_v17) = row128 (W (Proc.devRef .tc main_arg3)) := by
  simp only [hostOps0_2]; after_results_simp; rfl

/-- The first layer's output taken by source id. -/
theorem s1_v19 (W : Valuation τ sig (Elt F)) :
    StableHlo.after hostOps1 W (Proc.devRef .tc main_v19) = take128 (W (Proc.devRef .tc main_v18)) (W (Proc.devRef .tc main_v1)) := by
  simp only [hostOps1]; after_results_simp
  simp only [ofBuf_toBuf, rd_v1, rd_v18, wr_v19]
  unfold take128 mask col wrap; rfl

/-- Its neighbour mean. -/
theorem s11_v31 (W : Valuation τ sig (Elt F)) :
    StableHlo.after hostOps1_1 W (Proc.devRef .tc main_v31) = mean128 (W (Proc.devRef .tc main_v19)) (W (Proc.devRef .tc main_v3)) := by
  simp only [hostOps1_1]; after_results_simp; rfl
/-- The second layer's bias as a row. -/
theorem s11_v32 (W : Valuation τ sig (Elt F)) :
    StableHlo.after hostOps1_1 W (Proc.devRef .tc main_v32) = row64 (W (Proc.devRef .tc main_arg6)) := by
  simp only [hostOps1_1]; after_results_simp; rfl

/-- The second layer's output taken by source id … -/
theorem s2_v34 (W : Valuation τ sig (Elt F)) :
    StableHlo.after hostOps2 W (Proc.devRef .tc main_v34) = take64 (W (Proc.devRef .tc main_v33)) (W (Proc.devRef .tc main_v1)) := by
  simp only [hostOps2]; after_results_simp
  simp only [ofBuf_toBuf, rd_v1, rd_v33, wr_v34]
  unfold take64 mask col wrap; rfl
/-- … and by destination id. -/
theorem s21_v35 (W : Valuation τ sig (Elt F)) :
    StableHlo.after hostOps2_1 W (Proc.devRef .tc main_v35) = take64 (W (Proc.devRef .tc main_v33)) (W (Proc.devRef .tc main_v3)) := by
  simp only [hostOps2_1]; after_results_simp
  simp only [ofBuf_toBuf, rd_v3, rd_v33, wr_v35]
  unfold take64 mask col wrap; rfl

/-- Every edge's features, and the classifier's two biases as rows. -/
theorem s22_v36 (W : Valuation τ sig (Elt F)) :
    StableHlo.after hostOps2_2 W (Proc.devRef .tc main_v36) = edgeFeatures (W (Proc.devRef .tc main_v34)) (W (Proc.devRef .tc main_v35)) := by
  simp only [hostOps2_2]; after_results_simp; rfl
theorem s22_v37 (W : Valuation τ sig (Elt F)) :
    StableHlo.after hostOps2_2 W (Proc.devRef .tc main_v37) = row64 (W (Proc.devRef .tc main_arg9)) := by
  simp only [hostOps2_2]; after_results_simp; rfl
theorem s22_v38 (W : Valuation τ sig (Elt F)) :
    StableHlo.after hostOps2_2 W (Proc.devRef .tc main_v38) = row2 (W (Proc.devRef .tc main_arg11)) := by
  simp only [hostOps2_2]; after_results_simp; rfl

end Cert.KernelIdeal.Host

end
-- ==== Proof.HostKeeps.lean ====
/- What each host stretch leaves alone. A stretch of host operations writes only its own result buffers (each operation
  one buffer), so from any contents every other buffer holds after the stretch what it held before it.
-/
import proofs.«416496_j25366076850454_1_alg».proof.Proof.Gen.KernelIdeal.Launch
import Idealize.ShloMosaic.Lib.StableHlo.Run

noncomputable section

namespace Cert.KernelIdeal.Keeps

open Cert.KernelIdeal Cert.KernelIdeal.Gen
open Idealize.ShloMosaic Idealize.ShloMosaic.TcCoe Idealize.SL.Sem Idealize.ShloMosaic.StableHlo

variable {F : FTy → Type} [FloatOps F]

/-- The buffers stretch 0 writes: the two rows of the edge list. -/
abbrev written0 : List (Ref sig .tc) :=
  [main_v0, main_v1, main_v2, main_v3]
theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep0 (W : Valuation τ sig (Elt F)) (r : Ref sig .tc) (h : r ∉ written0) :
    StableHlo.after hostOps0 W (Proc.devRef .tc r) = W (Proc.devRef .tc r) :=
  StableHlo.after_of_writes_sub hostOps0 W writes0 h

/-- The buffers stretch 0_1 writes: the first take's intermediates and its result. -/
abbrev written0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes0_1 : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep0_1 (W : Valuation τ sig (Elt F)) (r : Ref sig .tc) (h : r ∉ written0_1) :
    StableHlo.after hostOps0_1 W (Proc.devRef .tc r) = W (Proc.devRef .tc r) :=
  StableHlo.after_of_writes_sub hostOps0_1 W writes0_1 h

/-- The buffers stretch 0_2 writes: the first neighbour mean's intermediates, the mean and the first bias row. -/
abbrev written0_2 : List (Ref sig .tc) :=
  [main_cst, main_v5, main_v6, main_v7, main_cst_0, main_v8, main_cst_1, main_v9, main_v10, main_v11, main_cst_2, main_v12, main_v13, main_v14, main_v15, main_v16, main_v17]
theorem writes0_2 : (hostOps0_2 : List (HloOp τ sig (Elt F))).Forall fun op => op.writes ⊆ (written0_2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep0_2 (W : Valuation τ sig (Elt F)) (r : Ref sig .tc) (h : r ∉ written0_2) :
    StableHlo.after hostOps0_2 W (Proc.devRef .tc r) = W (Proc.devRef .tc r) :=
  StableHlo.after_of_writes_sub hostOps0_2 W writes0_2 h

/-- The buffers stretch 1 writes: the second take's intermediates and its result. -/
abbrev written1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19]
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep1 (W : Valuation τ sig (Elt F)) (r : Ref sig .tc) (h : r ∉ written1) :
    StableHlo.after hostOps1 W (Proc.devRef .tc r) = W (Proc.devRef .tc r) :=
  StableHlo.after_of_writes_sub hostOps1 W writes1 h

/-- The buffers stretch 1_1 writes: the second neighbour mean's intermediates, the mean and the second bias row. -/
abbrev written1_1 : List (Ref sig .tc) :=
  [main_cst_3, main_v20, main_v21, main_v22, main_cst_4, main_v23, main_cst_5, main_v24, main_v25, main_v26, main_cst_6, main_v27, main_v28, main_v29, main_v30, main_v31, main_v32]
theorem writes1_1 : (hostOps1_1 : List (HloOp τ sig (Elt F))).Forall fun op => op.writes ⊆ (written1_1.map (Proc.devRef (τ := τ) .tc)).toFinset := by
  simp only [hostOps1_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep1_1 (W : Valuation τ sig (Elt F)) (r : Ref sig .tc) (h : r ∉ written1_1) :
    StableHlo.after hostOps1_1 W (Proc.devRef .tc r) = W (Proc.devRef .tc r) :=
  StableHlo.after_of_writes_sub hostOps1_1 W writes1_1 h

/-- The buffers stretch 2 writes: the take by source id's intermediates and its result. -/
abbrev written2 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v34]
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep2 (W : Valuation τ sig (Elt F)) (r : Ref sig .tc) (h : r ∉ written2) :
    StableHlo.after hostOps2 W (Proc.devRef .tc r) = W (Proc.devRef .tc r) :=
  StableHlo.after_of_writes_sub hostOps2 W writes2 h

/-- The buffers stretch 2_1 writes: the take by destination id's intermediates and its result. -/
abbrev written2_1 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v35]
theorem writes2_1 : (hostOps2_1 : List (HloOp τ sig (Elt F))).Forall fun op => op.writes ⊆ (written2_1.map (Proc.devRef (τ := τ) .tc)).toFinset := by
  simp only [hostOps2_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep2_1 (W : Valuation τ sig (Elt F)) (r : Ref sig .tc) (h : r ∉ written2_1) :
    StableHlo.after hostOps2_1 W (Proc.devRef .tc r) = W (Proc.devRef .tc r) :=
  StableHlo.after_of_writes_sub hostOps2_1 W writes2_1 h

/-- The buffers stretch 2_2 writes: the edge features and the classifier's two bias rows. -/
abbrev written2_2 : List (Ref sig .tc) :=
  [main_v36, main_v37, main_v38]
theorem writes2_2 : (hostOps2_2 : List (HloOp τ sig (Elt F))).Forall fun op => op.writes ⊆ (written2_2.map (Proc.devRef (τ := τ) .tc)).toFinset := by
  simp only [hostOps2_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Any other buffer is as it was. -/
theorem keep2_2 (W : Valuation τ sig (Elt F)) (r : Ref sig .tc) (h : r ∉ written2_2) :
    StableHlo.after hostOps2_2 W (Proc.devRef .tc r) = W (Proc.devRef .tc r) :=
  StableHlo.after_of_writes_sub hostOps2_2 W writes2_2 h

end Cert.KernelIdeal.Keeps

end
-- ==== Proof.Spec.lean ====
/-
  What the three dense stages compute, as whole-array functions over the extended reals.

  A SAGE layer maps node features to  relu (mean · Wlᵀ + x · Wrᵀ + b): entry (n, j) of the result is
  max (Σₖ mean[n,k]·Wl[j,k] + Σₖ x[n,k]·Wr[j,k] + b[j]) 0.  The edge classifier maps an edge's concatenated
  endpoint features e to  relu (e · W₁ᵀ + b₁) · W₂ᵀ + b₂: entry (r, o) is Σⱼ max (Σₖ e[r,k]·W₁[j,k] + b₁[j]) 0 · W₂[o,j] + b₂[o].
  The bias of each stage is held as a one-row matrix. The zero of the relu is kept as the float word of +0.0.
-/
import Idealize.ShloMosaic.PureOps.Ideal
import Idealize.ShloMosaic.Lib.ValueIdx

noncomputable section

namespace Cert.Spec

open Idealize.ShloMosaic Idealize.ShloMosaic.ValueIdx

/-- The first SAGE layer, 64 features in, 128 out, over 100000 nodes. -/
def sage1 (mean x : FVec Ideal ⟨2, ![100000, 64]⟩ .f32) (wl wr : FVec Ideal ⟨2, ![128, 64]⟩ .f32)
    (b : FVec Ideal ⟨2, ![1, 128]⟩ .f32) : FVec Ideal ⟨2, ![100000, 128]⟩ .f32 := fun i =>
  max (((∑ k : Fin 64, mean (ix2 (i 0 : Fin 100000) k) * wl (ix2 (i 1 : Fin 128) k))
        + (∑ k : Fin 64, x (ix2 (i 0 : Fin 100000) k) * wr (ix2 (i 1 : Fin 128) k)))
      + b (ix2 (0 : Fin 1) (i 1 : Fin 128)))
    (Ideal.ofBits .f32 0x00000000#32)

/-- The second SAGE layer, 128 features in, 64 out. -/
def sage2 (mean x : FVec Ideal ⟨2, ![100000, 128]⟩ .f32) (wl wr : FVec Ideal ⟨2, ![64, 128]⟩ .f32)
    (b : FVec Ideal ⟨2, ![1, 64]⟩ .f32) : FVec Ideal ⟨2, ![100000, 64]⟩ .f32 := fun i =>
  max (((∑ k : Fin 128, mean (ix2 (i 0 : Fin 100000) k) * wl (ix2 (i 1 : Fin 64) k))
        + (∑ k : Fin 128, x (ix2 (i 0 : Fin 100000) k) * wr (ix2 (i 1 : Fin 64) k)))
      + b (ix2 (0 : Fin 1) (i 1 : Fin 64)))
    (Ideal.ofBits .f32 0x00000000#32)

/-- The hidden layer of the edge classifier at edge r, unit j. -/
def hidden (er : FVec Ideal ⟨2, ![1600000, 128]⟩ .f32) (w1 : FVec Ideal ⟨2, ![64, 128]⟩ .f32)
    (b1 : FVec Ideal ⟨2, ![1, 64]⟩ .f32) (r : Fin 1600000) (j : Fin 64) : EReal :=
  max ((∑ k : Fin 128, er (ix2 r k) * w1 (ix2 j k)) + b1 (ix2 (0 : Fin 1) j)) (Ideal.ofBits .f32 0x00000000#32)

/-- The edge classifier: 128 features per edge, 64 hidden units, 2 outputs, over 1600000 edges. -/
def mlp (er : FVec Ideal ⟨2, ![1600000, 128]⟩ .f32) (w1 : FVec Ideal ⟨2, ![64, 128]⟩ .f32)
    (b1 : FVec Ideal ⟨2, ![1, 64]⟩ .f32) (w2 : FVec Ideal ⟨2, ![2, 64]⟩ .f32) (b2 : FVec Ideal ⟨2, ![1, 2]⟩ .f32) :
    FVec Ideal ⟨2, ![1600000, 2]⟩ .f32 := fun i =>
  (∑ j : Fin 64, hidden er w1 b1 (i 0 : Fin 1600000) j * w2 (ix2 (i 1 : Fin 2) j)) + b2 (ix2 (0 : Fin 1) (i 1 : Fin 2))

end Cert.Spec

end
-- ==== Proof.SageRegion0.lean ====
/-
  The first SAGE layer's region: what its output array holds when the region ends.

  The region walks the 100000 node rows in 20 blocks of 5000. At each block it forms
  relu (mean · Wlᵀ + x · Wrᵀ + b) on the block's rows from the whole weight matrices and the bias row, and writes
  the 5000 × 128 result back to the same rows of the output. Entry (p, q) of a block's result is
  max (Σₖ mean[p,k]·Wl[q,k] + Σₖ x[p,k]·Wr[q,k] + b[0,q]) 0; row p of block t is row 5000·t + p of the array, and
  the 20 blocks tile the rows, so the array ends as the layer's whole-array function of the five inputs.
-/
import proofs.«416496_j25366076850454_1_alg».proof.Proof.Gen.KernelIdeal.Frame
import proofs.«416496_j25366076850454_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SageRegion0

open Cert.KernelIdeal Cert.KernelIdeal.Gen Idealize.ShloMosaic Idealize.ShloMosaic.TcCoe Idealize.SL.Sem
open Idealize.ShloMosaic.Pipeline (Dat)
open Idealize.ShloMosaic.ValueIdx

/-! ## One product of the layer: rows of the left factor against rows of the (transposed) weight -/

/-- The left factor is read at the result's row … -/
theorem lhs_rows0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and the summation index; -/
theorem lhs_rows0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- the right factor at the summation index … -/
theorem rhs_rows0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and the result's column. -/
theorem rhs_rows0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- x · wᵀ from a zero accumulator: entry (p, q) is Σₖ x[p,k] · w[q,k]. -/
theorem rowsTimesRows0 (x : FVec Ideal S5000x64 .f32) (w : FVec Ideal S128x64 .f32) (p : Fin 5000) (q : Fin 128) :
    matmul dot_S5000x64_S64x128_S5000x128_1_0_0_1_n_n none x (transpose S64x128 [1, 0] w transposes_S128x64_p1_0_S64x128)
        (constant (F := Ideal) S5000x128 .f32 0x00000000#32) (ix2 p q)
      = ∑ k : Fin 64, x (ix2 p k) * w (ix2 q k) := by
  refine (Ideal.matmul_constant_zero_apply dot_S5000x64_S64x128_S5000x128_1_0_0_1_n_n none x _ (ix2 p q)).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_rows0_0 _ _
    | ⟨1, _⟩ => exact (lhs_rows0_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_rows0_0 _ _).trans hk
    | ⟨1, _⟩ => exact rhs_rows0_1 _ _)
  rw [el, er]
  exact congrArg (x (ix2 p k) * ·) (transpose_apply [1, 0] w transposes_S128x64_p1_0_S64x128 (ix2 k q) (ix2 q k) (fun b => match b with
    | ⟨0, _⟩ => rfl
    | ⟨1, _⟩ => rfl))

/-! ## The body's result at an entry -/

/-- Entry (p, q) of what the body computes from its five loaded blocks. -/
theorem layer0_apply (x0 x1 : Vec Ideal S5000x64 .f32) (x2 x3 : Vec Ideal S128x64 .f32) (x4 : Vec Ideal S1x128 .f32)
    (p : Fin 5000) (q : Fin 128) :
    k0_pay1 (F := Ideal) x0 x1 x2 x3 x4 (ix2 p q)
      = max (((∑ k : Fin 64, x0 (ix2 p k) * x2 (ix2 q k)) + (∑ k : Fin 64, x1 (ix2 p k) * x3 (ix2 q k)))
          + x4 (ix2 (0 : Fin 1) q)) (Ideal.ofBits .f32 0x00000000#32) := by
  unfold k0_pay1
  refine (maximumf_apply _ _ (ix2 p q)).trans ?_
  refine congrArg₂ max ?_ rfl
  refine (addf_apply _ _ (ix2 p q)).trans ?_
  refine congrArg₂ (· + ·) ?_ ?_
  · refine (addf_apply _ _ (ix2 p q)).trans ?_
    refine congrArg₂ (· + ·) ?_ ?_
    · rw [shapeCast_self]
      exact rowsTimesRows0 x0 x2 p q
    · exact rowsTimesRows0 x1 x3 p q
  · rw [shapeCast_self]
    exact broadcastTo_apply x4 broadcasts_S1x128_S5000x128 (ix2 p q) (ix2 (0 : Fin 1) q) (fun a => match a with
      | ⟨0, _⟩ => rfl
      | ⟨1, _⟩ => rfl)

/-! ## From the blocks to the array -/

theorem zeroOffsets : (![0, 0] : Fin 2 → Nat) = fun _ => 0 := funext fun a => by fin_cases a <;> rfl

/-- Where each window's block sits at grid point t: the three row-blocked windows (mean, x, the output) at row block t,
    the two weight matrices and the bias row whole. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- What grid point t writes back is rows 5000·t … 5000·t + 4999 of the layer's whole-array function. -/
theorem flushed0 (c : Dev nD) (t : Fin cfg0.N) :
    (dat0 (F := Ideal) V c).flushed 5 t = ((cfg0.win 5).blk t).view.read (Elt Ideal)
      (Cert.Spec.sage1 (V c main_v16) (V c main_arg0) (V c main_arg2) (V c main_arg4) (V c main_v17)) := by
  show (cfg0.win 5).cut (grid0.coords t) ((dat0 V c).after 5 t) = _
  rw [after0_5]
  unfold out0_5
  rw [View.canon_unit_zero zeroOffsets]
  simp only [View.ld_unit_zero (S := S5000x64) zeroOffsets, View.ld_unit_zero (S := S128x64) zeroOffsets, View.ld_unit_zero (S := S1x128) zeroOffsets]
  obtain ⟨e00, e01, e10, e11, e20, e21, e30, e31, e40, e41, e50, e51⟩ := blockIndex0 t
  refine funext fun (y : S5000x128.Idx) => ?_
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (ix2 p q)
    = Cert.Spec.sage1 (V c main_v16) (V c main_arg0) (V c main_arg2) (V c main_arg4) (V c main_v17) (((cfg0.win 5).blk t).view.emb (ix2 p q))
  refine (layer0_apply _ _ _ _ _ p q).trans ?_
  -- the array row under row p of block t
  have hi0 : ((((cfg0.win 5).blk t).view.emb (ix2 p q) : S100000x128.Idx) 0).val = t.val * 5000 + p.val := by
    show win0_5.index t (0 : Fin 2) * 5000 + 1 * p.val = _
    omega
  have hi1 : ((((cfg0.win 5).blk t).view.emb (ix2 p q) : S100000x128.Idx) 1).val = q.val := by
    show win0_5.index t (1 : Fin 2) * 128 + 1 * q.val = _
    omega
  generalize hi : (((cfg0.win 5).blk t).view.emb (ix2 p q) : S100000x128.Idx) = i at hi0 hi1 ⊢
  -- each input block's entries are the array's entries at that row and at the output's column
  have h0 : ∀ k : Fin 64, (iblk0 V c 0 t : Vec Ideal S5000x64 .f32) (ix2 p k)
      = (V c main_v16 : S100000x64.Idx → Elt Ideal .f32) (ix2 (i 0 : Fin 100000) k) := fun k => by
    show (V c main_v16 : S100000x64.Idx → Elt Ideal .f32) (((cfg0.win 0).blk t).view.emb (ix2 p k)) = _
    refine congrArg _ (funext fun a => Fin.ext ?_)
    match a with
    | ⟨0, _⟩ => show win0_0.index t (0 : Fin 2) * 5000 + 1 * p.val = (i 0).val; omega
    | ⟨1, _⟩ => show win0_0.index t (1 : Fin 2) * 64 + 1 * k.val = k.val; omega
  have h1 : ∀ k : Fin 64, (iblk0 V c 1 t : Vec Ideal S5000x64 .f32) (ix2 p k)
      = (V c main_arg0 : S100000x64.Idx → Elt Ideal .f32) (ix2 (i 0 : Fin 100000) k) := fun k => by
    show (V c main_arg0 : S100000x64.Idx → Elt Ideal .f32) (((cfg0.win 1).blk t).view.emb (ix2 p k)) = _
    refine congrArg _ (funext fun a => Fin.ext ?_)
    match a with
    | ⟨0, _⟩ => show win0_1.index t (0 : Fin 2) * 5000 + 1 * p.val = (i 0).val; omega
    | ⟨1, _⟩ => show win0_1.index t (1 : Fin 2) * 64 + 1 * k.val = k.val; omega
  have h2 : ∀ k : Fin 64, (iblk0 V c 2 t : Vec Ideal S128x64 .f32) (ix2 q k)
      = (V c main_arg2 : S128x64.Idx → Elt Ideal .f32) (ix2 (i 1 : Fin 128) k) := fun k => by
    show (V c main_arg2 : S128x64.Idx → Elt Ideal .f32) (((cfg0.win 2).blk t).view.emb (ix2 q k)) = _
    refine congrArg _ (funext fun a => Fin.ext ?_)
    match a with
    | ⟨0, _⟩ => show win0_2.index t (0 : Fin 2) * 128 + 1 * q.val = (i 1).val; omega
    | ⟨1, _⟩ => show win0_2.index t (1 : Fin 2) * 64 + 1 * k.val = k.val; omega
  have h3 : ∀ k : Fin 64, (iblk0 V c 3 t : Vec Ideal S128x64 .f32) (ix2 q k)
      = (V c main_arg4 : S128x64.Idx → Elt Ideal .f32) (ix2 (i 1 : Fin 128) k) := fun k => by
    show (V c main_arg4 : S128x64.Idx → Elt Ideal .f32) (((cfg0.win 3).blk t).view.emb (ix2 q k)) = _
    refine congrArg _ (funext fun a => Fin.ext ?_)
    match a with
    | ⟨0, _⟩ => show win0_3.index t (0 : Fin 2) * 128 + 1 * q.val = (i 1).val; omega
    | ⟨1, _⟩ => show win0_3.index t (1 : Fin 2) * 64 + 1 * k.val = k.val; omega
  have h4 : (iblk0 V c 4 t : Vec Ideal S1x128 .f32) (ix2 (0 : Fin 1) q)
      = (V c main_v17 : S1x128.Idx → Elt Ideal .f32) (ix2 (0 : Fin 1) (i 1 : Fin 128)) := by
    show (V c main_v17 : S1x128.Idx → Elt Ideal .f32) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = (i 1).val; omega
  refine congrArg₂ max ?_ rfl
  exact congrArg₂ (· + ·) (congrArg₂ (· + ·)
    (Finset.sum_congr rfl fun k _ => congrArg₂ (· * ·) (h0 k) (h2 k))
    (Finset.sum_congr rfl fun k _ => congrArg₂ (· * ·) (h1 k) (h3 k))) h4

/-- An array index is under grid point t's block iff, axis by axis, it is in the block's range. -/
theorem mem_rows0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- THE OUTPUT ARRAY when the region ends: the 20 row blocks tile the 100000 rows (row r is in block r / 5000), so the
    array is the first SAGE layer of the five input arrays as the region found them. -/
theorem arr0 (c : Dev nD) :
    (dat0 (F := Ideal) V c).arrAt 5 cfg0.N
      = Cert.Spec.sage1 (V c main_v16) (V c main_arg0) (V c main_arg2) (V c main_arg4) (V c main_v17) :=
  (dat0 (F := Ideal) V c).arrAt_eq_of_cover 5 _ (fun t _ => flushed0 V c t) fun i => by
    have hr : (i 0).val < 100000 := (i 0).isLt
    have hq : (i 1).val < 128 := (i 1).isLt
    have hN : grid0.N = 20 := N_0
    have hlt : (i 0).val / 5000 < cfg0.N := by show (i 0).val / 5000 < grid0.N; omega
    obtain ⟨t, ht⟩ : ∃ t : Fin cfg0.N, t.val = (i 0).val / 5000 := ⟨⟨_, hlt⟩, rfl⟩
    obtain ⟨-, -, -, -, -, -, -, -, -, -, e50, e51⟩ := blockIndex0 t
    refine ⟨t, flush0_5 t, ?_⟩
    rw [mem_rows0]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega

end

end Cert.KernelIdeal.SageRegion0

end
-- ==== Proof.SageRegion1.lean ====
/-
  The second SAGE layer's region: what its output array holds when the region ends.

  The region walks the 100000 node rows in 20 blocks of 5000. At each block it forms
  relu (mean · Wlᵀ + h · Wrᵀ + b) on the block's rows — h the first layer's output, 128 features wide — from the whole
  weight matrices and the bias row, and writes the 5000 × 64 result back to the same rows of the output. Entry (p, q) of a
  block's result is max (Σₖ mean[p,k]·Wl[q,k] + Σₖ h[p,k]·Wr[q,k] + b[0,q]) 0, k over the 128 features; row p of block t
  is row 5000·t + p of the array, and the 20 blocks tile the rows, so the array ends as the layer's whole-array function of
  the five inputs.
-/
import proofs.«416496_j25366076850454_1_alg».proof.Proof.Gen.KernelIdeal.Frame
import proofs.«416496_j25366076850454_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SageRegion1

open Cert.KernelIdeal Cert.KernelIdeal.Gen Idealize.ShloMosaic Idealize.ShloMosaic.TcCoe Idealize.SL.Sem
open Idealize.ShloMosaic.Pipeline (Dat)
open Idealize.ShloMosaic.ValueIdx

/-! ## One product of the layer: rows of the left factor against rows of the (transposed) weight -/

/-- The left factor is read at the result's row … -/
theorem lhs_rows1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the summation index; -/
theorem lhs_rows1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right factor at the summation index … -/
theorem rhs_rows1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and the result's column. -/
theorem rhs_rows1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- x · wᵀ from a zero accumulator: entry (p, q) is Σₖ x[p,k] · w[q,k]. -/
theorem rowsTimesRows1 (x : FVec Ideal S5000x128 .f32) (w : FVec Ideal S64x128 .f32) (p : Fin 5000) (q : Fin 64) :
    matmul dot_S5000x128_S128x64_S5000x64_1_0_0_1_n_n none x (transpose S128x64 [1, 0] w transposes_S64x128_p1_0_S128x64)
        (constant (F := Ideal) S5000x64 .f32 0x00000000#32) (ix2 p q)
      = ∑ k : Fin 128, x (ix2 p k) * w (ix2 q k) := by
  refine (Ideal.matmul_constant_zero_apply dot_S5000x128_S128x64_S5000x64_1_0_0_1_n_n none x _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_rows1_0 _ _
    | ⟨1, _⟩ => exact (lhs_rows1_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_rows1_0 _ _).trans hk
    | ⟨1, _⟩ => exact rhs_rows1_1 _ _)
  rw [el, er]
  exact congrArg (x (ix2 p k) * ·) (transpose_apply [1, 0] w transposes_S64x128_p1_0_S128x64 (ix2 k q) (ix2 q k) (fun b => match b with
    | ⟨0, _⟩ => rfl
    | ⟨1, _⟩ => rfl))

/-! ## The body's result at an entry -/

/-- Entry (p, q) of what the body computes from its five loaded blocks. -/
theorem layer1_apply (x0 x1 : Vec Ideal S5000x128 .f32) (x2 x3 : Vec Ideal S64x128 .f32) (x4 : Vec Ideal S1x64 .f32)
    (p : Fin 5000) (q : Fin 64) :
    k1_pay1 (F := Ideal) x0 x1 x2 x3 x4 (ix2 p q)
      = max (((∑ k : Fin 128, x0 (ix2 p k) * x2 (ix2 q k)) + (∑ k : Fin 128, x1 (ix2 p k) * x3 (ix2 q k)))
          + x4 (ix2 (0 : Fin 1) q)) (Ideal.ofBits .f32 0x00000000#32) := by
  unfold k1_pay1
  refine (maximumf_apply _ _ (ix2 p q)).trans ?_
  refine congrArg₂ max ?_ rfl
  refine (addf_apply _ _ (ix2 p q)).trans ?_
  refine congrArg₂ (· + ·) ?_ ?_
  · refine (addf_apply _ _ (ix2 p q)).trans ?_
    refine congrArg₂ (· + ·) ?_ ?_
    · rw [shapeCast_self]
      exact rowsTimesRows1 x0 x2 p q
    · rw [shapeCast_self]
      exact rowsTimesRows1 x1 x3 p q
  · rw [shapeCast_self]
    exact broadcastTo_apply x4 broadcasts_S1x64_S5000x64 (ix2 p q) (ix2 (0 : Fin 1) q) (fun a => match a with
      | ⟨0, _⟩ => rfl
      | ⟨1, _⟩ => rfl)

/-! ## From the blocks to the array -/

theorem zeroOffsets1 : (![0, 0] : Fin 2 → Nat) = fun _ => 0 := funext fun a => by fin_cases a <;> rfl

/-- Where each window's block sits at grid point t: the three row-blocked windows (mean, h, the output) at row block t,
    the two weight matrices and the bias row whole. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- What grid point t writes back is rows 5000·t … 5000·t + 4999 of the layer's whole-array function. -/
theorem flushed1 (c : Dev nD) (t : Fin cfg1.N) :
    (dat1 (F := Ideal) V c).flushed 5 t = ((cfg1.win 5).blk t).view.read (Elt Ideal)
      (Cert.Spec.sage2 (V c main_v31) (V c main_v18) (V c main_arg5) (V c main_arg7) (V c main_v32)) := by
  show (cfg1.win 5).cut (grid1.coords t) ((dat1 V c).after 5 t) = _
  rw [after1_5]
  unfold out1_5
  rw [View.canon_unit_zero zeroOffsets1]
  simp only [View.ld_unit_zero (S := S5000x128) zeroOffsets1, View.ld_unit_zero (S := S64x128) zeroOffsets1, View.ld_unit_zero (S := S1x64) zeroOffsets1]
  obtain ⟨e00, e01, e10, e11, e20, e21, e30, e31, e40, e41, e50, e51⟩ := blockIndex1 t
  refine funext fun (y : S5000x64.Idx) => ?_
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (ix2 p q)
    = Cert.Spec.sage2 (V c main_v31) (V c main_v18) (V c main_arg5) (V c main_arg7) (V c main_v32) (((cfg1.win 5).blk t).view.emb (ix2 p q))
  refine (layer1_apply _ _ _ _ _ p q).trans ?_
  -- the array row under row p of block t
  have hi0 : ((((cfg1.win 5).blk t).view.emb (ix2 p q) : S100000x64.Idx) 0).val = t.val * 5000 + p.val := by
    show win1_5.index t (0 : Fin 2) * 5000 + 1 * p.val = _
    omega
  have hi1 : ((((cfg1.win 5).blk t).view.emb (ix2 p q) : S100000x64.Idx) 1).val = q.val := by
    show win1_5.index t (1 : Fin 2) * 64 + 1 * q.val = _
    omega
  generalize hi : (((cfg1.win 5).blk t).view.emb (ix2 p q) : S100000x64.Idx) = i at hi0 hi1 ⊢
  -- each input block's entries are the array's entries at that row and at the output's column
  have h0 : ∀ k : Fin 128, (iblk1 V c 0 t : Vec Ideal S5000x128 .f32) (ix2 p k)
      = (V c main_v31 : S100000x128.Idx → Elt Ideal .f32) (ix2 (i 0 : Fin 100000) k) := fun k => by
    show (V c main_v31 : S100000x128.Idx → Elt Ideal .f32) (((cfg1.win 0).blk t).view.emb (ix2 p k)) = _
    refine congrArg _ (funext fun a => Fin.ext ?_)
    match a with
    | ⟨0, _⟩ => show win1_0.index t (0 : Fin 2) * 5000 + 1 * p.val = (i 0).val; omega
    | ⟨1, _⟩ => show win1_0.index t (1 : Fin 2) * 128 + 1 * k.val = k.val; omega
  have h1 : ∀ k : Fin 128, (iblk1 V c 1 t : Vec Ideal S5000x128 .f32) (ix2 p k)
      = (V c main_v18 : S100000x128.Idx → Elt Ideal .f32) (ix2 (i 0 : Fin 100000) k) := fun k => by
    show (V c main_v18 : S100000x128.Idx → Elt Ideal .f32) (((cfg1.win 1).blk t).view.emb (ix2 p k)) = _
    refine congrArg _ (funext fun a => Fin.ext ?_)
    match a with
    | ⟨0, _⟩ => show win1_1.index t (0 : Fin 2) * 5000 + 1 * p.val = (i 0).val; omega
    | ⟨1, _⟩ => show win1_1.index t (1 : Fin 2) * 128 + 1 * k.val = k.val; omega
  have h2 : ∀ k : Fin 128, (iblk1 V c 2 t : Vec Ideal S64x128 .f32) (ix2 q k)
      = (V c main_arg5 : S64x128.Idx → Elt Ideal .f32) (ix2 (i 1 : Fin 64) k) := fun k => by
    show (V c main_arg5 : S64x128.Idx → Elt Ideal .f32) (((cfg1.win 2).blk t).view.emb (ix2 q k)) = _
    refine congrArg _ (funext fun a => Fin.ext ?_)
    match a with
    | ⟨0, _⟩ => show win1_2.index t (0 : Fin 2) * 64 + 1 * q.val = (i 1).val; omega
    | ⟨1, _⟩ => show win1_2.index t (1 : Fin 2) * 128 + 1 * k.val = k.val; omega
  have h3 : ∀ k : Fin 128, (iblk1 V c 3 t : Vec Ideal S64x128 .f32) (ix2 q k)
      = (V c main_arg7 : S64x128.Idx → Elt Ideal .f32) (ix2 (i 1 : Fin 64) k) := fun k => by
    show (V c main_arg7 : S64x128.Idx → Elt Ideal .f32) (((cfg1.win 3).blk t).view.emb (ix2 q k)) = _
    refine congrArg _ (funext fun a => Fin.ext ?_)
    match a with
    | ⟨0, _⟩ => show win1_3.index t (0 : Fin 2) * 64 + 1 * q.val = (i 1).val; omega
    | ⟨1, _⟩ => show win1_3.index t (1 : Fin 2) * 128 + 1 * k.val = k.val; omega
  have h4 : (iblk1 V c 4 t : Vec Ideal S1x64 .f32) (ix2 (0 : Fin 1) q)
      = (V c main_v32 : S1x64.Idx → Elt Ideal .f32) (ix2 (0 : Fin 1) (i 1 : Fin 64)) := by
    show (V c main_v32 : S1x64.Idx → Elt Ideal .f32) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = (i 1).val; omega
  refine congrArg₂ max ?_ rfl
  exact congrArg₂ (· + ·) (congrArg₂ (· + ·)
    (Finset.sum_congr rfl fun k _ => congrArg₂ (· * ·) (h0 k) (h2 k))
    (Finset.sum_congr rfl fun k _ => congrArg₂ (· * ·) (h1 k) (h3 k))) h4

/-- An array index is under grid point t's block iff, axis by axis, it is in the block's range. -/
theorem mem_rows1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v33).slice (win1_5.rect t)).set ↔ _
  rw [View.set_slice_whole, Rect.mem_set_unit]
  exact Iff.rfl

/-- THE OUTPUT ARRAY when the region ends: the 20 row blocks tile the 100000 rows (row r is in block r / 5000), so the
    array is the second SAGE layer of the five input arrays as the region found them. -/
theorem arr1 (c : Dev nD) :
    (dat1 (F := Ideal) V c).arrAt 5 cfg1.N
      = Cert.Spec.sage2 (V c main_v31) (V c main_v18) (V c main_arg5) (V c main_arg7) (V c main_v32) :=
  (dat1 (F := Ideal) V c).arrAt_eq_of_cover 5 _ (fun t _ => flushed1 V c t) fun i => by
    have hr : (i 0).val < 100000 := (i 0).isLt
    have hq : (i 1).val < 64 := (i 1).isLt
    have hN : grid1.N = 20 := N_1
    have hlt : (i 0).val / 5000 < cfg1.N := by show (i 0).val / 5000 < grid1.N; omega
    obtain ⟨t, ht⟩ : ∃ t : Fin cfg1.N, t.val = (i 0).val / 5000 := ⟨⟨_, hlt⟩, rfl⟩
    obtain ⟨-, -, -, -, -, -, -, -, -, -, e50, e51⟩ := blockIndex1 t
    refine ⟨t, flush1_5 t, ?_⟩
    rw [mem_rows1]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 64 ≤ (i 1).val ∧ (i 1).val < win1_5.index t (1 : Fin 2) * 64 + 64; omega

end

end Cert.KernelIdeal.SageRegion1

end
-- ==== Proof.MlpRegion.lean ====
/-
  The edge classifier's region, read as one whole-array function.

  Each of the 100 grid points takes 16000 consecutive edges (rows 16000·t … 16000·t + 15999 of the
  [1600000,128] feature matrix), multiplies them against W₁ᵀ, adds the bias row b₁, clamps below at 0,
  multiplies against W₂ᵀ, adds the bias row b₂, and writes the 16000 result rows back at the same offset.
  The weights and biases are read whole at every point. The 100 row blocks tile the 1600000 rows, so the
  result array is, entry by entry, the classifier of the specification.
-/
import proofs.«416496_j25366076850454_1_alg».proof.Proof.Gen.KernelIdeal.Frame
import proofs.«416496_j25366076850454_1_alg».proof.Proof.Spec
import Idealize.ShloMosaic.Lib.Pipeline.Value
import Idealize.ShloMosaic.Lib.ValueIdx
import Idealize.ShloMosaic.PureOps.Ideal.Laws

noncomputable section

namespace Cert.KernelIdeal.MlpRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The two contractions' index maps, axis by axis -/

/-- First contraction (over the 128 features): the left operand's row is the result's row. -/
theorem lhs_feat_0 (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
/-- Its column is the summation index. -/
theorem lhs_feat_1 (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
/-- The right operand's row is the summation index. -/
theorem rhs_feat_0 (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
/-- Its column is the result's column. -/
theorem rhs_feat_1 (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- Second contraction (over the 64 hidden units): the left operand's row is the result's row. -/
theorem lhs_hid_0 (i : S16000x2.Idx) (q : dot_S16000x64_S64x2_S16000x2_1_0_0_1_n_n.contr.Idx) :
    (dot_S16000x64_S64x2_S16000x2_1_0_0_1_n_n.lhsIdx i q 0).val = (i 0).val := by
  unfold DotDims.lhsIdx
  rw [dif_neg (show ¬(0 : Fin S16000x64.rank) ∈ dot_S16000x64_S64x2_S16000x2_1_0_0_1_n_n.lhsBatch by decide), dif_pos (show (0 : Fin S16000x64.rank) ∈ dot_S16000x64_S64x2_S16000x2_1_0_0_1_n_n.lhsNonContracting by decide)]
  rfl
/-- Its column is the summation index. -/
theorem lhs_hid_1 (i : S16000x2.Idx) (q : dot_S16000x64_S64x2_S16000x2_1_0_0_1_n_n.contr.Idx) :
    (dot_S16000x64_S64x2_S16000x2_1_0_0_1_n_n.lhsIdx i q 1).val = (q ⟨0, by decide⟩).val :=
  dot_S16000x64_S64x2_S16000x2_1_0_0_1_n_n.lhsIdx_val_of_single rfl i q
/-- The right operand's row is the summation index. -/
theorem rhs_hid_0 (i : S16000x2.Idx) (q : dot_S16000x64_S64x2_S16000x2_1_0_0_1_n_n.contr.Idx) :
    (dot_S16000x64_S64x2_S16000x2_1_0_0_1_n_n.rhsIdx i q 0).val = (q ⟨0, by decide⟩).val :=
  dot_S16000x64_S64x2_S16000x2_1_0_0_1_n_n.rhsIdx_val_of_single rfl i q
/-- Its column is the result's column. -/
theorem rhs_hid_1 (i : S16000x2.Idx) (q : dot_S16000x64_S64x2_S16000x2_1_0_0_1_n_n.contr.Idx) :
    (dot_S16000x64_S64x2_S16000x2_1_0_0_1_n_n.rhsIdx i q 1).val = (i 1).val := by
  unfold DotDims.rhsIdx
  rw [dif_neg (show ¬(1 : Fin S64x2.rank) ∈ dot_S16000x64_S64x2_S16000x2_1_0_0_1_n_n.rhsBatch by decide), dif_pos (show (1 : Fin S64x2.rank) ∈ dot_S16000x64_S64x2_S16000x2_1_0_0_1_n_n.rhsNonContracting by decide)]
  rfl

/-! ## The two products at an index -/

/-- A block of rows against W₁ transposed, into a zero accumulator: entry (p, j) is Σₖ x[p,k]·W₁[j,k]. -/
theorem featProduct_apply (x : FVec Ideal S16000x128 .f32) (w : FVec Ideal S64x128 .f32) (p : Fin 16000) (j : Fin 64) :
    FloatOps.matmul dot_S16000x128_S128x64_S16000x64_1_0_0_1_n_n none x
        (transpose S128x64 [1, 0] w transposes_S64x128_p1_0_S128x64) (constant (F := Ideal) S16000x64 .f32 0x00000000#32) (ix2 p j)
      = ∑ k : Fin 128, x (ix2 p k) * w (ix2 j k) := by
  refine (Ideal.matmul_constant_zero_apply dot_S16000x128_S128x64_S16000x64_1_0_0_1_n_n none x _ (ix2 p j)).trans ?_
  rw [← Equiv.sum_comp (ValueIdx.contrEquiv1 dot_S16000x128_S128x64_S16000x64_1_0_0_1_n_n 128 rfl rfl).symm]
  refine Finset.sum_congr rfl fun k _ => ?_
  have hk := ValueIdx.contrEquiv1_symm_val dot_S16000x128_S128x64_S16000x64_1_0_0_1_n_n 128 rfl rfl k
  have el : dot_S16000x128_S128x64_S16000x64_1_0_0_1_n_n.lhsIdx (ix2 p j) ((ValueIdx.contrEquiv1 dot_S16000x128_S128x64_S16000x64_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S16000x128_S128x64_S16000x64_1_0_0_1_n_n.rhsIdx (ix2 p j) ((ValueIdx.contrEquiv1 dot_S16000x128_S128x64_S16000x64_1_0_0_1_n_n 128 rfl rfl).symm k) = ix2 k j := funext fun a => Fin.ext (by
    match a with
    | ⟨0, _⟩ => exact (rhs_feat_0 _ _).trans hk
    | ⟨1, _⟩ => exact rhs_feat_1 _ _)
  rw [el, er]
  exact congrArg (x (ix2 p k) * ·) (transpose_apply [1, 0] w transposes_S64x128_p1_0_S128x64 (ix2 k j) (ix2 j k) (fun b => match b with
    | ⟨0, _⟩ => rfl
    | ⟨1, _⟩ => rfl))

/-- A block of hidden rows against W₂ transposed, into a zero accumulator: entry (p, o) is Σⱼ h[p,j]·W₂[o,j]. -/
theorem hidProduct_apply (h : FVec Ideal S16000x64 .f32) (w : FVec Ideal S2x64 .f32) (p : Fin 16000) (o : Fin 2) :
    FloatOps.matmul dot_S16000x64_S64x2_S16000x2_1_0_0_1_n_n none h
        (transpose S64x2 [1, 0] w transposes_S2x64_p1_0_S64x2) (constant (F := Ideal) S16000x2 .f32 0x00000000#32) (ix2 p o)
      = ∑ j : Fin 64, h (ix2 p j) * w (ix2 o j) := by
  refine (Ideal.matmul_constant_zero_apply dot_S16000x64_S64x2_S16000x2_1_0_0_1_n_n none h _ (ix2 p o)).trans ?_
  rw [← Equiv.sum_comp (ValueIdx.contrEquiv1 dot_S16000x64_S64x2_S16000x2_1_0_0_1_n_n 64 rfl rfl).symm]
  refine Finset.sum_congr rfl fun j _ => ?_
  have hj := ValueIdx.contrEquiv1_symm_val dot_S16000x64_S64x2_S16000x2_1_0_0_1_n_n 64 rfl rfl j
  have el : dot_S16000x64_S64x2_S16000x2_1_0_0_1_n_n.lhsIdx (ix2 p o) ((ValueIdx.contrEquiv1 dot_S16000x64_S64x2_S16000x2_1_0_0_1_n_n 64 rfl rfl).symm j) = ix2 p j := funext fun a => Fin.ext (by
    match a with
    | ⟨0, _⟩ => exact lhs_hid_0 _ _
    | ⟨1, _⟩ => exact (lhs_hid_1 _ _).trans hj)
  have er : dot_S16000x64_S64x2_S16000x2_1_0_0_1_n_n.rhsIdx (ix2 p o) ((ValueIdx.contrEquiv1 dot_S16000x64_S64x2_S16000x2_1_0_0_1_n_n 64 rfl rfl).symm j) = ix2 j o := funext fun a => Fin.ext (by
    match a with
    | ⟨0, _⟩ => exact (rhs_hid_0 _ _).trans hj
    | ⟨1, _⟩ => exact rhs_hid_1 _ _)
  rw [el, er]
  exact congrArg (h (ix2 p j) * ·) (transpose_apply [1, 0] w transposes_S2x64_p1_0_S64x2 (ix2 j o) (ix2 o j) (fun b => match b with
    | ⟨0, _⟩ => rfl
    | ⟨1, _⟩ => rfl))

/-! ## The body's result at an index -/

/-- Entry (p, o) of what one grid point stores, from the blocks it loaded: the classifier on row p of the edge block. -/
theorem payload_apply (x0 : Vec Ideal S16000x128 .f32) (x1 : Vec Ideal S64x128 .f32) (x2 : Vec Ideal S1x64 .f32)
    (x3 : Vec Ideal S2x64 .f32) (x4 : Vec Ideal S1x2 .f32) (p : Fin 16000) (o : Fin 2) :
    k2_pay1 (F := Ideal) x0 x1 x2 x3 x4 (ix2 p o)
      = (∑ j : Fin 64, max ((∑ k : Fin 128, x0 (ix2 p k) * x1 (ix2 j k)) + x2 (ix2 (0 : Fin 1) j)) (Ideal.ofBits .f32 0x00000000#32) * x3 (ix2 o j))
        + x4 (ix2 (0 : Fin 1) o) := by
  unfold k2_pay1
  dsimp only
  simp only [shapeCast_self]
  refine (addf_apply _ _ _).trans ?_
  refine congrArg₂ (· + ·) ?_ ?_
  · refine (hidProduct_apply _ x3 p o).trans ?_
    refine Finset.sum_congr rfl fun j _ => ?_
    refine congrArg (· * x3 (ix2 o j)) ?_
    refine (maximumf_apply _ _ _).trans ?_
    refine congrArg₂ max ?_ rfl
    refine (addf_apply _ _ _).trans ?_
    refine congrArg₂ (· + ·) (featProduct_apply x0 x1 p j) ?_
    exact broadcastTo_apply x2 broadcasts_S1x64_S16000x64 (ix2 p j) (ix2 (0 : Fin 1) j) (fun a => match a with
      | ⟨0, _⟩ => rfl
      | ⟨1, _⟩ => rfl)
  · exact broadcastTo_apply x4 broadcasts_S1x2_S16000x2 (ix2 p o) (ix2 (0 : Fin 1) o) (fun a => match a with
      | ⟨0, _⟩ => rfl
      | ⟨1, _⟩ => rfl)

/-- The classifier of the specification at row 16000·t + p, from blocks that hold that row of the edge features and the
    weights and bias rows whole. -/
theorem mlp_of_blocks (E : FVec Ideal S1600000x128 .f32) (W1 : FVec Ideal S64x128 .f32) (B1 : FVec Ideal S1x64 .f32)
    (W2 : FVec Ideal S2x64 .f32) (B2 : FVec Ideal S1x2 .f32)
    (x0 : Vec Ideal S16000x128 .f32) (x1 : Vec Ideal S64x128 .f32) (x2 : Vec Ideal S1x64 .f32)
    (x3 : Vec Ideal S2x64 .f32) (x4 : Vec Ideal S1x2 .f32) (t : Nat) (p : Fin 16000) (o : Fin 2) (i : S1600000x2.Idx)
    (hi0 : (i 0).val = 16000 * t + p.val) (hi1 : (i 1).val = o.val)
    (h0 : ∀ (k : Fin 128) (r : S1600000x128.Idx), (r 0).val = 16000 * t + p.val → (r 1).val = k.val → x0 (ix2 p k) = E r)
    (h1 : ∀ (j : Fin 64) (k : Fin 128), x1 (ix2 j k) = W1 (ix2 j k))
    (h2 : ∀ (z : Fin 1) (j : Fin 64), x2 (ix2 z j) = B1 (ix2 z j))
    (h3 : ∀ (o : Fin 2) (j : Fin 64), x3 (ix2 o j) = W2 (ix2 o j))
    (h4 : ∀ (z : Fin 1) (o : Fin 2), x4 (ix2 z o) = B2 (ix2 z o)) :
    (∑ j : Fin 64, max ((∑ k : Fin 128, x0 (ix2 p k) * x1 (ix2 j k)) + x2 (ix2 (0 : Fin 1) j)) (Ideal.ofBits .f32 0x00000000#32) * x3 (ix2 o j))
        + x4 (ix2 (0 : Fin 1) o)
      = Cert.Spec.mlp E W1 B1 W2 B2 i := by
  have ho : (i 1 : Fin 2) = o := Fin.ext hi1
  unfold Cert.Spec.mlp Cert.Spec.hidden
  rw [ho, h4]
  refine congrArg (· + B2 (ix2 (0 : Fin 1) o)) (Finset.sum_congr rfl fun j _ => ?_)
  rw [h3, h2]
  refine congrArg (fun s => max (s + B1 (ix2 (0 : Fin 1) j)) (Ideal.ofBits .f32 0x00000000#32) * W2 (ix2 o j)) (Finset.sum_congr rfl fun k _ => ?_)
  rw [h1, h0 k (ix2 (i 0 : Fin 1600000) k) hi0 rfl]

/-! ## Each window's block at a grid point, as entries of its array -/

variable (V : (c : Dev nD) → (b : Ref sig .tc) → Buf (Elt Ideal) ((c : Thread nD τ).loc b))

theorem originZero : (![0, 0] : Fin 2 → Nat) = fun _ => 0 := funext fun a => by fin_cases a <;> rfl

/-- The index maps over the 100 grid points: the edge block and the result block sit at block row t,
    block column 0; the weights and the bias rows sit at block (0, 0) throughout. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's edge block is row 16000·t + p of the edge-feature matrix. -/
theorem edgeBlock_apply (c : Dev nD) (t : Fin cfg2.N) (p : Fin 16000) (k : Fin 128) (i : S1600000x128.Idx)
    (h0 : (i 0).val = 16000 * t.val + p.val) (h1 : (i 1).val = k.val) :
    (iblk2 V c 0 t : Vec Ideal S16000x128 .f32) (ix2 p k) = (V c main_v36 : S1600000x128.Idx → Elt Ideal .f32) i := by
  obtain ⟨e0, e1, -⟩ := blockIndex t
  show V c main_v36 (((cfg2.win 0).blk t).view.emb (ix2 p k)) = V c main_v36 i
  refine congrArg (V c main_v36) (funext fun a => Fin.ext ?_)
  match a with
  | ⟨0, _⟩ => show win2_0.index t (0 : Fin 2) * 16000 + 1 * p.val = (i 0).val; omega
  | ⟨1, _⟩ => show win2_0.index t (1 : Fin 2) * 128 + 1 * k.val = (i 1).val; omega

/-- The first weight matrix is read whole at every point. -/
theorem w1Block_apply (c : Dev nD) (t : Fin cfg2.N) (j : Fin 64) (k : Fin 128) :
    (iblk2 V c 1 t : Vec Ideal S64x128 .f32) (ix2 j k) = (V c main_arg8 : S64x128.Idx → Elt Ideal .f32) (ix2 j k) := by
  obtain ⟨-, -, e0, e1, -⟩ := blockIndex t
  show V c main_arg8 (((cfg2.win 1).blk t).view.emb (ix2 j k)) = V c main_arg8 (ix2 j k)
  refine congrArg (V c main_arg8) (funext fun a => Fin.ext ?_)
  match a with
  | ⟨0, _⟩ => show win2_1.index t (0 : Fin 2) * 64 + 1 * j.val = j.val; omega
  | ⟨1, _⟩ => show win2_1.index t (1 : Fin 2) * 128 + 1 * k.val = k.val; omega

/-- The first bias row is read whole at every point. -/
theorem b1Block_apply (c : Dev nD) (t : Fin cfg2.N) (z : Fin 1) (j : Fin 64) :
    (iblk2 V c 2 t : Vec Ideal S1x64 .f32) (ix2 z j) = (V c main_v37 : S1x64.Idx → Elt Ideal .f32) (ix2 z j) := by
  obtain ⟨-, -, -, -, e0, e1, -⟩ := blockIndex t
  show V c main_v37 (((cfg2.win 2).blk t).view.emb (ix2 z j)) = V c main_v37 (ix2 z j)
  refine congrArg (V c main_v37) (funext fun a => Fin.ext ?_)
  match a with
  | ⟨0, _⟩ => show win2_2.index t (0 : Fin 2) * 1 + 1 * z.val = z.val; omega
  | ⟨1, _⟩ => show win2_2.index t (1 : Fin 2) * 64 + 1 * j.val = j.val; omega

/-- The second weight matrix is read whole at every point. -/
theorem w2Block_apply (c : Dev nD) (t : Fin cfg2.N) (o : Fin 2) (j : Fin 64) :
    (iblk2 V c 3 t : Vec Ideal S2x64 .f32) (ix2 o j) = (V c main_arg10 : S2x64.Idx → Elt Ideal .f32) (ix2 o j) := by
  obtain ⟨-, -, -, -, -, -, e0, e1, -⟩ := blockIndex t
  show V c main_arg10 (((cfg2.win 3).blk t).view.emb (ix2 o j)) = V c main_arg10 (ix2 o j)
  refine congrArg (V c main_arg10) (funext fun a => Fin.ext ?_)
  match a with
  | ⟨0, _⟩ => show win2_3.index t (0 : Fin 2) * 2 + 1 * o.val = o.val; omega
  | ⟨1, _⟩ => show win2_3.index t (1 : Fin 2) * 64 + 1 * j.val = j.val; omega

/-- The second bias row is read whole at every point. -/
theorem b2Block_apply (c : Dev nD) (t : Fin cfg2.N) (z : Fin 1) (o : Fin 2) :
    (iblk2 V c 4 t : Vec Ideal S1x2 .f32) (ix2 z o) = (V c main_v38 : S1x2.Idx → Elt Ideal .f32) (ix2 z o) := by
  obtain ⟨-, -, -, -, -, -, -, -, e0, e1, -⟩ := blockIndex t
  show V c main_v38 (((cfg2.win 4).blk t).view.emb (ix2 z o)) = V c main_v38 (ix2 z o)
  refine congrArg (V c main_v38) (funext fun a => Fin.ext ?_)
  match a with
  | ⟨0, _⟩ => show win2_4.index t (0 : Fin 2) * 1 + 1 * z.val = z.val; omega
  | ⟨1, _⟩ => show win2_4.index t (1 : Fin 2) * 2 + 1 * o.val = o.val; omega

/-! ## What a point writes back, and the whole array -/

/-- Point t writes back block t of the classifier of the arrays the region finds. -/
theorem flushed_eq (c : Dev nD) (t : Fin cfg2.N) :
    (dat2 (F := Ideal) V c).flushed 5 t
      = ((cfg2.win 5).blk t).view.read (Elt Ideal)
          (Cert.Spec.mlp (V c main_v36) (V c main_arg8) (V c main_v37) (V c main_arg10) (V c main_v38)) := by
  show (cfg2.win 5).cut (grid2.coords t) ((dat2 (F := Ideal) V c).after 5 t) = _
  rw [after2_5]
  unfold out2_5
  rw [View.canon_unit_zero originZero]
  simp only [View.ld_unit_zero (S := S16000x128) originZero, View.ld_unit_zero (S := S64x128) originZero,
    View.ld_unit_zero (S := S1x64) originZero, View.ld_unit_zero (S := S2x64) originZero, View.ld_unit_zero (S := S1x2) originZero]
  obtain ⟨-, -, -, -, -, -, -, -, -, -, e0, e1⟩ := blockIndex t
  funext y
  obtain ⟨p, o, rfl⟩ : ∃ (p : Fin 16000) (o : Fin 2), y = ix2 p o := ⟨y 0, y 1, eq_ix2 y⟩
  show k2_pay1 (F := Ideal) (iblk2 V c 0 t) (iblk2 V c 1 t) (iblk2 V c 2 t) (iblk2 V c 3 t) (iblk2 V c 4 t) (ix2 p o)
    = Cert.Spec.mlp (V c main_v36) (V c main_arg8) (V c main_v37) (V c main_arg10) (V c main_v38) (((cfg2.win 5).blk t).view.emb (ix2 p o))
  refine (payload_apply (iblk2 V c 0 t) (iblk2 V c 1 t) (iblk2 V c 2 t) (iblk2 V c 3 t) (iblk2 V c 4 t) p o).trans ?_
  refine mlp_of_blocks _ _ _ _ _ _ _ _ _ _ t.val p o _ ?_ ?_ (fun k r hr0 hr1 => edgeBlock_apply V c t p k r hr0 hr1)
    (w1Block_apply V c t) (b1Block_apply V c t) (w2Block_apply V c t) (b2Block_apply V c t)
  · show win2_5.index t (0 : Fin 2) * 16000 + 1 * p.val = 16000 * t.val + p.val; omega
  · show win2_5.index t (1 : Fin 2) * 2 + 1 * o.val = o.val; omega

/-- An index of the result array is in point t's block iff each coordinate is in the block's range on its axis. -/
theorem mem_block (t : Fin cfg2.N) (i : S1600000x2.Idx) :
    i ∈ ((cfg2.win 5).blk t).view.set ↔ ∀ a : Fin 2, win2_5.index t a * S16000x2.size a ≤ (i a).val ∧ (i a).val < win2_5.index t a * S16000x2.size a + S16000x2.size a := by
  show i ∈ ((View.whole main_v39).slice (win2_5.rect t)).set ↔ _
  rw [View.set_slice_whole, Rect.mem_set_unit]
  exact Iff.rfl

/-- The 100 blocks of 16000 rows tile the 1600000 rows: row r lies in the block of point r / 16000. -/
theorem covered (i : S1600000x2.Idx) :
    ∃ t : Fin cfg2.N, (cfg2.win 5).flush t = true ∧ i ∈ ((cfg2.win 5).blk t).view.set := by
  have hi0 : (i 0).val < 1600000 := (i 0).isLt
  have hi1 : (i 1).val < 2 := (i 1).isLt
  have hN : cfg2.N = 100 := N_2
  let t : Fin cfg2.N := ⟨(i 0).val / 16000, by rw [hN]; omega⟩
  have ht : t.val = (i 0).val / 16000 := rfl
  obtain ⟨-, -, -, -, -, -, -, -, -, -, e0, e1⟩ := blockIndex t
  refine ⟨t, flush2_5 t, ?_⟩
  rw [mem_block]
  intro a
  match a with
  | ⟨0, _⟩ => show win2_5.index t (0 : Fin 2) * 16000 ≤ (i 0).val ∧ (i 0).val < win2_5.index t (0 : Fin 2) * 16000 + 16000; omega
  | ⟨1, _⟩ => show win2_5.index t (1 : Fin 2) * 2 ≤ (i 1).val ∧ (i 1).val < win2_5.index t (1 : Fin 2) * 2 + 2; omega

/-- After the region, the result array is the edge classifier of the arrays the region found, entry by entry. -/
theorem arr2 (c : Dev nD) :
    (dat2 (F := Ideal) V c).arrAt 5 cfg2.N
      = Cert.Spec.mlp (V c main_v36) (V c main_arg8) (V c main_v37) (V c main_arg10) (V c main_v38) :=
  (dat2 (F := Ideal) V c).arrAt_eq_of_cover 5 _ (fun t _ => flushed_eq V c t) covered

end Cert.KernelIdeal.MlpRegion

end
-- ==== Proof.KernelValue.lean ====
/-
  The kernel program's result as one value of its arguments.

  Following the buffers from the launch to the return: the edge list's two rows; the node features taken by source id
  and averaged into the destination nodes; the first SAGE layer of that mean and the features (region 0); its output
  taken and averaged the same way; the second SAGE layer (region 1); its output taken by source id and by destination
  id and joined edge by edge; the edge classifier (region 2). Between its writers every buffer keeps its contents:
  a host stretch writes only its own results and a region only its output array.
-/
import proofs.«416496_j25366076850454_1_alg».proof.Proof.KernelHost
import proofs.«416496_j25366076850454_1_alg».proof.Proof.HostKeeps
import proofs.«416496_j25366076850454_1_alg».proof.Proof.SageRegion0
import proofs.«416496_j25366076850454_1_alg».proof.Proof.SageRegion1
import proofs.«416496_j25366076850454_1_alg».proof.Proof.MlpRegion

noncomputable section

namespace Cert.KernelIdeal.Value

open Cert.KernelIdeal Cert.KernelIdeal.Gen Cert.KernelIdeal.Host Cert.KernelIdeal.Keeps
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments as launched, and the value -/

abbrev a0 : FVec Ideal S100000x64 .f32 := m ((c : Thread nD τ).loc main_arg0)
abbrev a1 : IVec S2x1600000 32 := m ((c : Thread nD τ).loc main_arg1)
abbrev a2 : FVec Ideal S128x64 .f32 := m ((c : Thread nD τ).loc main_arg2)
abbrev a3 : FVec Ideal S128 .f32 := m ((c : Thread nD τ).loc main_arg3)
abbrev a4 : FVec Ideal S128x64 .f32 := m ((c : Thread nD τ).loc main_arg4)
abbrev a5 : FVec Ideal S64x128 .f32 := m ((c : Thread nD τ).loc main_arg5)
abbrev a6 : FVec Ideal S64 .f32 := m ((c : Thread nD τ).loc main_arg6)
abbrev a7 : FVec Ideal S64x128 .f32 := m ((c : Thread nD τ).loc main_arg7)
abbrev a8 : FVec Ideal S64x128 .f32 := m ((c : Thread nD τ).loc main_arg8)
abbrev a9 : FVec Ideal S64 .f32 := m ((c : Thread nD τ).loc main_arg9)
abbrev a10 : FVec Ideal S2x64 .f32 := m ((c : Thread nD τ).loc main_arg10)
abbrev a11 : FVec Ideal S2 .f32 := m ((c : Thread nD τ).loc main_arg11)

/-- The first layer's output: the SAGE layer of the neighbour mean of the features and the features. -/
def layer1 : FVec Ideal S100000x128 .f32 :=
  Cert.Spec.sage1 (mean64 (take64 (a0 m c) (srcOf (a1 m c))) (dstOf (a1 m c))) (a0 m c) (a2 m c) (a4 m c) (row128 (a3 m c))
/-- The second layer's output. -/
def layer2 : FVec Ideal S100000x64 .f32 :=
  Cert.Spec.sage2 (mean128 (take128 (layer1 m c) (srcOf (a1 m c))) (dstOf (a1 m c))) (layer1 m c) (a5 m c) (a7 m c) (row64 (a6 m c))
/-- The classifier of every edge's joined endpoint features. -/
def result : FVec Ideal S1600000x2 .f32 :=
  Cert.Spec.mlp (edgeFeatures (take64 (layer2 m c) (srcOf (a1 m c))) (take64 (layer2 m c) (dstOf (a1 m c))))
    (a8 m c) (row64 (a9 m c)) (a10 m c) (row2 (a11 m c))

/-! ## A buffer nobody has written since the first stretch holds what it held after it -/

theorem to2 (r : Ref sig .tc) (h1 : r ∉ written0_1) : W2 m ρ c (Proc.devRef .tc r) = W1 m ρ c (Proc.devRef .tc r) :=
  keep0_1 (W1 m ρ c) r h1
theorem to3 (r : Ref sig .tc) (h1 : r ∉ written0_1) (h2 : r ∉ written0_2) :
    W3 m ρ c (Proc.devRef .tc r) = W1 m ρ c (Proc.devRef .tc r) :=
  (keep0_2 (W2 m ρ c) r h2).trans (to2 m ρ c r h1)
theorem to4 (r : Ref sig .tc) (h1 : r ∉ written0_1) (h2 : r ∉ written0_2) (g0 : ∀ w, Pipeline.arrRef spec0 w ≠ r) :
    W4 m ρ c (Proc.devRef .tc r) = W1 m ρ c (Proc.devRef .tc r) :=
  (W4_of_ne m ρ c r g0).trans (to3 m ρ c r h1 h2)
theorem to5 (r : Ref sig .tc) (h1 : r ∉ written0_1) (h2 : r ∉ written0_2) (g0 : ∀ w, Pipeline.arrRef spec0 w ≠ r)
    (h3 : r ∉ written1) : W5 m ρ c (Proc.devRef .tc r) = W1 m ρ c (Proc.devRef .tc r) :=
  (keep1 (W4 m ρ c) r h3).trans (to4 m ρ c r h1 h2 g0)
theorem to6 (r : Ref sig .tc) (h1 : r ∉ written0_1) (h2 : r ∉ written0_2) (g0 : ∀ w, Pipeline.arrRef spec0 w ≠ r)
    (h3 : r ∉ written1) (h4 : r ∉ written1_1) : W6 m ρ c (Proc.devRef .tc r) = W1 m ρ c (Proc.devRef .tc r) :=
  (keep1_1 (W5 m ρ c) r h4).trans (to5 m ρ c r h1 h2 g0 h3)
theorem to7 (r : Ref sig .tc) (h1 : r ∉ written0_1) (h2 : r ∉ written0_2) (g0 : ∀ w, Pipeline.arrRef spec0 w ≠ r)
    (h3 : r ∉ written1) (h4 : r ∉ written1_1) (g1 : ∀ w, Pipeline.arrRef spec1 w ≠ r) :
    W7 m ρ c (Proc.devRef .tc r) = W1 m ρ c (Proc.devRef .tc r) :=
  (W7_of_ne m ρ c r g1).trans (to6 m ρ c r h1 h2 g0 h3 h4)
theorem to8 (r : Ref sig .tc) (h1 : r ∉ written0_1) (h2 : r ∉ written0_2) (g0 : ∀ w, Pipeline.arrRef spec0 w ≠ r)
    (h3 : r ∉ written1) (h4 : r ∉ written1_1) (g1 : ∀ w, Pipeline.arrRef spec1 w ≠ r) (h5 : r ∉ written2) :
    W8 m ρ c (Proc.devRef .tc r) = W1 m ρ c (Proc.devRef .tc r) :=
  (keep2 (W7 m ρ c) r h5).trans (to7 m ρ c r h1 h2 g0 h3 h4 g1)
theorem to9 (r : Ref sig .tc) (h1 : r ∉ written0_1) (h2 : r ∉ written0_2) (g0 : ∀ w, Pipeline.arrRef spec0 w ≠ r)
    (h3 : r ∉ written1) (h4 : r ∉ written1_1) (g1 : ∀ w, Pipeline.arrRef spec1 w ≠ r) (h5 : r ∉ written2)
    (h6 : r ∉ written2_1) : W9 m ρ c (Proc.devRef .tc r) = W1 m ρ c (Proc.devRef .tc r) :=
  (keep2_1 (W8 m ρ c) r h6).trans (to8 m ρ c r h1 h2 g0 h3 h4 g1 h5)
theorem to10 (r : Ref sig .tc) (h1 : r ∉ written0_1) (h2 : r ∉ written0_2) (g0 : ∀ w, Pipeline.arrRef spec0 w ≠ r)
    (h3 : r ∉ written1) (h4 : r ∉ written1_1) (g1 : ∀ w, Pipeline.arrRef spec1 w ≠ r) (h5 : r ∉ written2)
    (h6 : r ∉ written2_1) (h7 : r ∉ written2_2) : W10 m ρ c (Proc.devRef .tc r) = W1 m ρ c (Proc.devRef .tc r) :=
  (keep2_2 (W9 m ρ c) r h7).trans (to9 m ρ c r h1 h2 g0 h3 h4 g1 h5 h6)

/-! ## After the first stretch: the edge list's rows, and the arguments as launched -/

theorem W1_src : W1 m ρ c (Proc.devRef .tc main_v1) = srcOf (a1 m c) := s0_v1 (W0 m ρ c)
theorem W1_dst : W1 m ρ c (Proc.devRef .tc main_v3) = dstOf (a1 m c) := s0_v3 (W0 m ρ c)
theorem W1_a0 : W1 m ρ c (Proc.devRef .tc main_arg0) = a0 m c := keep0 (W0 m ρ c) main_arg0 (by decide)
theorem W1_a2 : W1 m ρ c (Proc.devRef .tc main_arg2) = a2 m c := keep0 (W0 m ρ c) main_arg2 (by decide)
theorem W1_a3 : W1 m ρ c (Proc.devRef .tc main_arg3) = a3 m c := keep0 (W0 m ρ c) main_arg3 (by decide)
theorem W1_a4 : W1 m ρ c (Proc.devRef .tc main_arg4) = a4 m c := keep0 (W0 m ρ c) main_arg4 (by decide)
theorem W1_a5 : W1 m ρ c (Proc.devRef .tc main_arg5) = a5 m c := keep0 (W0 m ρ c) main_arg5 (by decide)
theorem W1_a6 : W1 m ρ c (Proc.devRef .tc main_arg6) = a6 m c := keep0 (W0 m ρ c) main_arg6 (by decide)
theorem W1_a7 : W1 m ρ c (Proc.devRef .tc main_arg7) = a7 m c := keep0 (W0 m ρ c) main_arg7 (by decide)
theorem W1_a8 : W1 m ρ c (Proc.devRef .tc main_arg8) = a8 m c := keep0 (W0 m ρ c) main_arg8 (by decide)
theorem W1_a9 : W1 m ρ c (Proc.devRef .tc main_arg9) = a9 m c := keep0 (W0 m ρ c) main_arg9 (by decide)
theorem W1_a10 : W1 m ρ c (Proc.devRef .tc main_arg10) = a10 m c := keep0 (W0 m ρ c) main_arg10 (by decide)
theorem W1_a11 : W1 m ρ c (Proc.devRef .tc main_arg11) = a11 m c := keep0 (W0 m ρ c) main_arg11 (by decide)

/-! ## Region 0 and what feeds it -/

theorem W2_taken : W2 m ρ c (Proc.devRef .tc main_v4) = take64 (a0 m c) (srcOf (a1 m c)) :=
  (s01_v4 (W1 m ρ c)).trans (congrArg₂ take64 (W1_a0 m ρ c) (W1_src m ρ c))
theorem W3_mean : W3 m ρ c (Proc.devRef .tc main_v16) = mean64 (take64 (a0 m c) (srcOf (a1 m c))) (dstOf (a1 m c)) :=
  (s02_v16 (W2 m ρ c)).trans (congrArg₂ mean64 (W2_taken m ρ c) ((to2 m ρ c main_v3 (by decide)).trans (W1_dst m ρ c)))
theorem W3_bias : W3 m ρ c (Proc.devRef .tc main_v17) = row128 (a3 m c) :=
  (s02_v17 (W2 m ρ c)).trans (congrArg row128 ((to2 m ρ c main_arg3 (by decide)).trans (W1_a3 m ρ c)))

/-- Region 0 leaves the first layer's output in its result array. -/
theorem W4_layer1 : W4 m ρ c (Proc.devRef .tc main_v18) = layer1 m c := by
  refine (W4_arr m ρ c 5).trans ((Cert.KernelIdeal.SageRegion0.arr0 (V3 m ρ) c).trans ?_)
  unfold layer1
  exact congr (congr (congr (congr (congrArg Cert.Spec.sage1 (W3_mean m ρ c))
    ((to3 m ρ c main_arg0 (by decide) (by decide)).trans (W1_a0 m ρ c)))
    ((to3 m ρ c main_arg2 (by decide) (by decide)).trans (W1_a2 m ρ c)))
    ((to3 m ρ c main_arg4 (by decide) (by decide)).trans (W1_a4 m ρ c)))
    (W3_bias m ρ c)

/-! ## Region 1 and what feeds it -/

theorem W5_taken : W5 m ρ c (Proc.devRef .tc main_v19) = take128 (layer1 m c) (srcOf (a1 m c)) :=
  (s1_v19 (W4 m ρ c)).trans (congrArg₂ take128 (W4_layer1 m ρ c)
    ((to4 m ρ c main_v1 (by decide) (by decide) (by decide)).trans (W1_src m ρ c)))
theorem W6_mean : W6 m ρ c (Proc.devRef .tc main_v31) = mean128 (take128 (layer1 m c) (srcOf (a1 m c))) (dstOf (a1 m c)) :=
  (s11_v31 (W5 m ρ c)).trans (congrArg₂ mean128 (W5_taken m ρ c)
    ((to5 m ρ c main_v3 (by decide) (by decide) (by decide) (by decide)).trans (W1_dst m ρ c)))
theorem W6_bias : W6 m ρ c (Proc.devRef .tc main_v32) = row64 (a6 m c) :=
  (s11_v32 (W5 m ρ c)).trans (congrArg row64
    ((to5 m ρ c main_arg6 (by decide) (by decide) (by decide) (by decide)).trans (W1_a6 m ρ c)))
theorem W6_layer1 : W6 m ρ c (Proc.devRef .tc main_v18) = layer1 m c :=
  (keep1_1 (W5 m ρ c) main_v18 (by decide)).trans ((keep1 (W4 m ρ c) main_v18 (by decide)).trans (W4_layer1 m ρ c))

/-- Region 1 leaves the second layer's output in its result array. -/
theorem W7_layer2 : W7 m ρ c (Proc.devRef .tc main_v33) = layer2 m c := by
  refine (W7_arr m ρ c 5).trans ((Cert.KernelIdeal.SageRegion1.arr1 (V6 m ρ) c).trans ?_)
  unfold layer2
  exact congr (congr (congr (congr (congrArg Cert.Spec.sage2 (W6_mean m ρ c))
    (W6_layer1 m ρ c))
    ((to6 m ρ c main_arg5 (by decide) (by decide) (by decide) (by decide) (by decide)).trans (W1_a5 m ρ c)))
    ((to6 m ρ c main_arg7 (by decide) (by decide) (by decide) (by decide) (by decide)).trans (W1_a7 m ρ c)))
    (W6_bias m ρ c)

/-! ## Region 2 and what feeds it -/

theorem W8_bySrc : W8 m ρ c (Proc.devRef .tc main_v34) = take64 (layer2 m c) (srcOf (a1 m c)) :=
  (s2_v34 (W7 m ρ c)).trans (congrArg₂ take64 (W7_layer2 m ρ c)
    ((to7 m ρ c main_v1 (by decide) (by decide) (by decide) (by decide) (by decide) (by decide)).trans (W1_src m ρ c)))
theorem W9_byDst : W9 m ρ c (Proc.devRef .tc main_v35) = take64 (layer2 m c) (dstOf (a1 m c)) :=
  (s21_v35 (W8 m ρ c)).trans (congrArg₂ take64
    ((keep2 (W7 m ρ c) main_v33 (by decide)).trans (W7_layer2 m ρ c))
    ((to8 m ρ c main_v3 (by decide) (by decide) (by decide) (by decide) (by decide) (by decide) (by decide)).trans (W1_dst m ρ c)))
theorem W10_edges : W10 m ρ c (Proc.devRef .tc main_v36)
    = edgeFeatures (take64 (layer2 m c) (srcOf (a1 m c))) (take64 (layer2 m c) (dstOf (a1 m c))) :=
  (s22_v36 (W9 m ρ c)).trans (congrArg₂ edgeFeatures
    ((keep2_1 (W8 m ρ c) main_v34 (by decide)).trans (W8_bySrc m ρ c)) (W9_byDst m ρ c))
theorem W10_bias1 : W10 m ρ c (Proc.devRef .tc main_v37) = row64 (a9 m c) :=
  (s22_v37 (W9 m ρ c)).trans (congrArg row64
    ((to9 m ρ c main_arg9 (by decide) (by decide) (by decide) (by decide) (by decide) (by decide) (by decide) (by decide)).trans (W1_a9 m ρ c)))
theorem W10_bias2 : W10 m ρ c (Proc.devRef .tc main_v38) = row2 (a11 m c) :=
  (s22_v38 (W9 m ρ c)).trans (congrArg row2
    ((to9 m ρ c main_arg11 (by decide) (by decide) (by decide) (by decide) (by decide) (by decide) (by decide) (by decide)).trans (W1_a11 m ρ c)))

/-- THE RESULT: at the last boundary the result array holds the classifier of every edge. -/
theorem kernel_value : W11 m ρ c (Proc.devRef .tc main_v39) = result m c := by
  refine (W11_arr m ρ c 5).trans ((Cert.KernelIdeal.MlpRegion.arr2 (V10 m ρ) c).trans ?_)
  unfold result
  exact congr (congr (congr (congr (congrArg Cert.Spec.mlp (W10_edges m ρ c))
    ((to10 m ρ c main_arg8 (by decide) (by decide) (by decide) (by decide) (by decide) (by decide) (by decide) (by decide) (by decide)).trans (W1_a8 m ρ c)))
    (W10_bias1 m ρ c))
    ((to10 m ρ c main_arg10 (by decide) (by decide) (by decide) (by decide) (by decide) (by decide) (by decide) (by decide) (by decide)).trans (W1_a10 m ρ c)))
    (W10_bias2 m ρ c)

end Cert.KernelIdeal.Value

end
-- ==== Proof.RefStages.lean ====
/-
  The reference's three dense stages are the whole-array functions of the specification.

  Each stage of the reference is a chain of elementwise operations and contractions against a transposed weight
  matrix. Read at an index (n, j): a contraction a · Wᵀ is Σₖ a[n,k]·W[j,k]; a bias held as a one-row matrix and
  broadcast over the rows is b[0,j]; the relu is the maximum with the float word of +0.0, which is left as that word.
  A SAGE layer of the reference adds (mean·Wlᵀ + b) + x·Wrᵀ where the specification has (mean·Wlᵀ + x·Wrᵀ) + b.
  Addition of extended reals is commutative and associative, so the two agree with no finiteness assumption.
  The edge classifier associates the same way on both sides.
-/
import proofs.«416496_j25366076850454_1_alg».proof.Proof.Gen.ReferenceIdeal.Read
import proofs.«416496_j25366076850454_1_alg».proof.Proof.Spec
import Idealize.ShloMosaic.Lib.ValueIdx
import Idealize.ShloMosaic.PureOps.Ideal

noncomputable section

namespace Cert.ReferenceIdeal.RefStages

open Cert.ReferenceIdeal Cert.ReferenceIdeal.Read Idealize.ShloMosaic Idealize.ShloMosaic.ValueIdx

/-- The first SAGE layer: entry (p, q) of relu ((mean·Wlᵀ + b) + x·Wrᵀ) is the specification's
    max ((Σₖ mean[p,k]·Wl[q,k] + Σₖ x[p,k]·Wr[q,k]) + b[0,q]) 0. -/
theorem sage1_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) :
    val_main_v31 (F := Ideal) x0 x1 x2 x3 x4
      = Cert.Spec.sage1 (val_main_v22 (F := Ideal) x0 x1) x0 x2 x4 (val_main_v25 (F := Ideal) x3) := by
  funext i
  obtain ⟨p, q, rfl⟩ : ∃ (p : Fin 100000) (q : Fin 128), i = ix2 p q := ⟨i 0, i 1, eq_ix2 i⟩
  rw [val_main_v31_apply, val_main_v30_apply, val_main_v27_apply, val_main_v24_apply, val_main_v26_apply,
    val_main_v29_apply, val_main_call0_v0_apply, val_main_call0_cst_apply]
  generalize val_main_v22 (F := Ideal) x0 x1 = m
  generalize val_main_v25 (F := Ideal) x3 = b
  -- the neighbour-mean contraction: row p of the mean against row q of Wl
  have hl : (∑ k : Fin 64, m (lidx_main_v24 (ix2 p q) k) * val_main_v23 (F := Ideal) x2 (ridx_main_v24 (ix2 p q) k))
      = ∑ k : Fin 64, m (ix2 p k) * x2 (ix2 q k) := Finset.sum_congr rfl fun k _ => by
    have e1 : lidx_main_v24 (ix2 p q) k = ix2 p k := funext fun a => Fin.ext (by match a with | ⟨0, _⟩ => rfl | ⟨1, _⟩ => rfl)
    have e2 : idx_main_v23 (ridx_main_v24 (ix2 p q) k) = ix2 q k := funext fun a => Fin.ext (by match a with | ⟨0, _⟩ => rfl | ⟨1, _⟩ => rfl)
    rw [val_main_v23_apply, e1, e2]
  -- the root contraction: row p of x against row q of Wr
  have hr : (∑ k : Fin 64, x0 (lidx_main_v29 (ix2 p q) k) * val_main_v28 (F := Ideal) x4 (ridx_main_v29 (ix2 p q) k))
      = ∑ k : Fin 64, x0 (ix2 p k) * x4 (ix2 q k) := Finset.sum_congr rfl fun k _ => by
    have e1 : lidx_main_v29 (ix2 p q) k = ix2 p k := funext fun a => Fin.ext (by match a with | ⟨0, _⟩ => rfl | ⟨1, _⟩ => rfl)
    have e2 : idx_main_v28 (ridx_main_v29 (ix2 p q) k) = ix2 q k := funext fun a => Fin.ext (by match a with | ⟨0, _⟩ => rfl | ⟨1, _⟩ => rfl)
    rw [val_main_v28_apply, e1, e2]
  -- the bias row broadcast over the nodes
  have hb : idx_main_v26 (ix2 p q) = ix2 (0 : Fin 1) q := funext fun a => Fin.ext (by match a with | ⟨0, _⟩ => rfl | ⟨1, _⟩ => rfl)
  rw [hl, hr, hb]
  simp only [Ideal.addf_def, Ideal.maximumf_def, Ideal.ofBits_def]
  rw [add_right_comm]
  rfl

/-- The second SAGE layer: entry (p, q) of relu ((mean·Wlᵀ + b) + h·Wrᵀ), h the first layer's output, is the
    specification's max ((Σₖ mean[p,k]·Wl[q,k] + Σₖ h[p,k]·Wr[q,k]) + b[0,q]) 0. -/
theorem sage2_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal)) :
    val_main_v59 (F := Ideal) x0 x1 x2 x3 x4 x5 x6 x7
      = Cert.Spec.sage2 (val_main_v50 (F := Ideal) x0 x1 x2 x3 x4) (val_main_v31 (F := Ideal) x0 x1 x2 x3 x4) x5 x7
          (val_main_v53 (F := Ideal) x6) := by
  funext i
  obtain ⟨p, q, rfl⟩ : ∃ (p : Fin 100000) (q : Fin 64), i = ix2 p q := ⟨i 0, i 1, eq_ix2 i⟩
  rw [val_main_v59_apply, val_main_v58_apply, val_main_v55_apply, val_main_v52_apply, val_main_v54_apply,
    val_main_v57_apply, val_main_call1_v0_apply, val_main_call1_cst_apply]
  generalize val_main_v50 (F := Ideal) x0 x1 x2 x3 x4 = m
  generalize val_main_v31 (F := Ideal) x0 x1 x2 x3 x4 = h
  generalize val_main_v53 (F := Ideal) x6 = b
  have hl : (∑ k : Fin 128, m (lidx_main_v52 (ix2 p q) k) * val_main_v51 (F := Ideal) x5 (ridx_main_v52 (ix2 p q) k))
      = ∑ k : Fin 128, m (ix2 p k) * x5 (ix2 q k) := Finset.sum_congr rfl fun k _ => by
    have e1 : lidx_main_v52 (ix2 p q) k = ix2 p k := funext fun a => Fin.ext (by match a with | ⟨0, _⟩ => rfl | ⟨1, _⟩ => rfl)
    have e2 : idx_main_v51 (ridx_main_v52 (ix2 p q) k) = ix2 q k := funext fun a => Fin.ext (by match a with | ⟨0, _⟩ => rfl | ⟨1, _⟩ => rfl)
    rw [val_main_v51_apply, e1, e2]
  have hr : (∑ k : Fin 128, h (lidx_main_v57 (ix2 p q) k) * val_main_v56 (F := Ideal) x7 (ridx_main_v57 (ix2 p q) k))
      = ∑ k : Fin 128, h (ix2 p k) * x7 (ix2 q k) := Finset.sum_congr rfl fun k _ => by
    have e1 : lidx_main_v57 (ix2 p q) k = ix2 p k := funext fun a => Fin.ext (by match a with | ⟨0, _⟩ => rfl | ⟨1, _⟩ => rfl)
    have e2 : idx_main_v56 (ridx_main_v57 (ix2 p q) k) = ix2 q k := funext fun a => Fin.ext (by match a with | ⟨0, _⟩ => rfl | ⟨1, _⟩ => rfl)
    rw [val_main_v56_apply, e1, e2]
  have hb : idx_main_v54 (ix2 p q) = ix2 (0 : Fin 1) q := funext fun a => Fin.ext (by match a with | ⟨0, _⟩ => rfl | ⟨1, _⟩ => rfl)
  rw [hl, hr, hb]
  simp only [Ideal.addf_def, Ideal.maximumf_def, Ideal.ofBits_def]
  rw [add_right_comm]
  rfl

/-- The hidden layer of the edge classifier: entry (r, j) of relu (e·W₁ᵀ + b₁) is the specification's
    max (Σₖ e[r,k]·W₁[j,k] + b₁[0,j]) 0. -/
theorem hidden_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal))
    (x8 : (⟨S64x128, .f32⟩ : BufTy).Contents (Elt Ideal)) (x9 : (⟨S64, .f32⟩ : BufTy).Contents (Elt Ideal))
    (r : Fin 1600000) (j : Fin 64) :
    val_main_v80 (F := Ideal) x0 x1 x2 x3 x4 x5 x6 x7 x8 x9 (ix2 r j)
      = Cert.Spec.hidden (val_main_v74 (F := Ideal) x0 x1 x2 x3 x4 x5 x6 x7) x8 (val_main_v77 (F := Ideal) x9) r j := by
  rw [val_main_v80_apply, val_main_v79_apply, val_main_v76_apply, val_main_v78_apply, val_main_call2_v0_apply,
    val_main_call2_cst_apply]
  generalize val_main_v74 (F := Ideal) x0 x1 x2 x3 x4 x5 x6 x7 = er
  generalize val_main_v77 (F := Ideal) x9 = b1
  have hs : (∑ k : Fin 128, er (lidx_main_v76 (ix2 r j) k) * val_main_v75 (F := Ideal) x8 (ridx_main_v76 (ix2 r j) k))
      = ∑ k : Fin 128, er (ix2 r k) * x8 (ix2 j k) := Finset.sum_congr rfl fun k _ => by
    have e1 : lidx_main_v76 (ix2 r j) k = ix2 r k := funext fun a => Fin.ext (by match a with | ⟨0, _⟩ => rfl | ⟨1, _⟩ => rfl)
    have e2 : idx_main_v75 (ridx_main_v76 (ix2 r j) k) = ix2 j k := funext fun a => Fin.ext (by match a with | ⟨0, _⟩ => rfl | ⟨1, _⟩ => rfl)
    rw [val_main_v75_apply, e1, e2]
  have hb : idx_main_v78 (ix2 r j) = ix2 (0 : Fin 1) j := funext fun a => Fin.ext (by match a with | ⟨0, _⟩ => rfl | ⟨1, _⟩ => rfl)
  rw [hs, hb]
  rfl

/-- The edge classifier: entry (r, o) of relu (e·W₁ᵀ + b₁)·W₂ᵀ + b₂ is the specification's
    Σⱼ hidden[r,j]·W₂[o,j] + b₂[0,o]. -/
theorem mlp_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S64x128, .f32⟩ : BufTy).Contents (Elt Ideal))
    (x6 : (⟨S64, .f32⟩ : BufTy).Contents (Elt Ideal)) (x7 : (⟨S64x128, .f32⟩ : BufTy).Contents (Elt Ideal))
    (x8 : (⟨S64x128, .f32⟩ : BufTy).Contents (Elt Ideal)) (x9 : (⟨S64, .f32⟩ : BufTy).Contents (Elt Ideal))
    (x10 : (⟨S2x64, .f32⟩ : BufTy).Contents (Elt Ideal)) (x11 : (⟨S2, .f32⟩ : BufTy).Contents (Elt Ideal)) :
    val_main_v85 (F := Ideal) x0 x1 x2 x3 x4 x5 x6 x7 x8 x9 x10 x11
      = Cert.Spec.mlp (val_main_v74 (F := Ideal) x0 x1 x2 x3 x4 x5 x6 x7) x8 (val_main_v77 (F := Ideal) x9) x10
          (val_main_v83 (F := Ideal) x11) := by
  funext i
  obtain ⟨r, o, rfl⟩ : ∃ (r : Fin 1600000) (o : Fin 2), i = ix2 r o := ⟨i 0, i 1, eq_ix2 i⟩
  rw [val_main_v85_apply, val_main_v82_apply, val_main_v84_apply]
  have hs : (∑ k : Fin 64, val_main_v80 (F := Ideal) x0 x1 x2 x3 x4 x5 x6 x7 x8 x9 (lidx_main_v82 (ix2 r o) k)
        * val_main_v81 (F := Ideal) x10 (ridx_main_v82 (ix2 r o) k))
      = ∑ k : Fin 64, Cert.Spec.hidden (val_main_v74 (F := Ideal) x0 x1 x2 x3 x4 x5 x6 x7) x8
          (val_main_v77 (F := Ideal) x9) r k * x10 (ix2 o k) := Finset.sum_congr rfl fun k _ => by
    have e1 : lidx_main_v82 (ix2 r o) k = ix2 r k := funext fun a => Fin.ext (by match a with | ⟨0, _⟩ => rfl | ⟨1, _⟩ => rfl)
    have e2 : idx_main_v81 (ridx_main_v82 (ix2 r o) k) = ix2 o k := funext fun a => Fin.ext (by match a with | ⟨0, _⟩ => rfl | ⟨1, _⟩ => rfl)
    rw [val_main_v81_apply, e1, e2, hidden_eq]
  have hb : idx_main_v84 (ix2 r o) = ix2 (0 : Fin 1) o := funext fun a => Fin.ext (by match a with | ⟨0, _⟩ => rfl | ⟨1, _⟩ => rfl)
  rw [hs, hb]
  rfl

end Cert.ReferenceIdeal.RefStages

end
-- ==== Proof.Bridge.lean ====
/-
  The reference computes what the kernel program computes, when every entry of the edge list is a node id.

  Both programs gather rows by the edges' ids, sum them into the destination nodes, divide by the nodes' edge counts,
  and apply the same dense stages; the kernel's gathers are takes (a range test per row, a fill where it fails) where the
  reference's are plain gathers. With node ids every row passes the test, the takes are the gathers, and layer by layer
  the two values are one: the first SAGE layer, then the second over it, then the edge classifier over that. A bias as
  a one-row matrix is the same whether made by reshaping the vector or by broadcasting it along a new first axis.
-/
import proofs.«416496_j25366076850454_1_alg».proof.Proof.KernelHost
import proofs.«416496_j25366076850454_1_alg».proof.Proof.RefStages
import Idealize.ShloMosaic.Lib.Pipeline.Value

noncomputable section

namespace Cert.Bridge

open Idealize.ShloMosaic Cert.TakeMask Cert.KernelIdeal.Host Cert.ReferenceIdeal.Read

/-! ## A vector as a one-row matrix, two ways -/

theorem row_eq {α : Type} {n : Nat} (hn : n ≠ 1) (x : (⟨1, ![n]⟩ : Shape).Idx → α)
    (hb : (⟨1, ![n]⟩ : Shape).BroadcastsInDim ⟨2, ![1, n]⟩ ![1]) (hc : (⟨1, ![n]⟩ : Shape).ShapeCasts ⟨2, ![1, n]⟩) :
    broadcastInDim ⟨2, ![1, n]⟩ ![1] hb x = shapeCast ⟨2, ![1, n]⟩ x hc := by
  funext j
  refine (broadcastInDim_apply ![1] hb x j (fun a => j a.succ) (fun a => ?_)).trans (shapeCast_addUnit_apply ![n] x hc j).symm
  match a with
  | ⟨0, _⟩ => show (j 1).val = if n = 1 then 0 else (j 1).val; rw [if_neg hn]

/-! ## The kernel program's value, as a function of the twelve argument arrays -/

/-- The first layer's output. -/
def layerOne (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) : FVec Ideal Cert.KernelIdeal.S100000x128 .f32 :=
  Cert.Spec.sage1 (mean64 (take64 x0 (srcOf x1)) (dstOf x1)) x0 x2 x4 (row128 x3)
/-- The second layer's output. -/
def layerTwo (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) : FVec Ideal Cert.KernelIdeal.S100000x64 .f32 :=
  Cert.Spec.sage2 (mean128 (take128 (layerOne x0 x1 x2 x3 x4) (srcOf x1)) (dstOf x1)) (layerOne x0 x1 x2 x3 x4) x5 x7 (row64 x6)
/-- The classifier of every edge. -/
def classify (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (x8 : (⟨Cert.ReferenceIdeal.S64x128, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) : FVec Ideal Cert.KernelIdeal.S1600000x2 .f32 :=
  Cert.Spec.mlp (edgeFeatures (take64 (layerTwo x0 x1 x2 x3 x4 x5 x6 x7) (srcOf x1)) (take64 (layerTwo x0 x1 x2 x3 x4 x5 x6 x7) (dstOf x1)))
    x8 (row64 x9) x10 (row2 x11)

/-! ## Node ids in both rows of the edge list -/

theorem src_inRange (x1 : (⟨Cert.ReferenceIdeal.S2x1600000, .i32⟩ : BufTy).Contents (Elt Ideal)) (h : ∀ i, InRange (x1 i)) (e : Cert.KernelIdeal.S1600000.Idx) : InRange (srcOf x1 e) := by
  unfold srcOf shapeCast extractStridedSlice; exact h _
theorem dst_inRange (x1 : (⟨Cert.ReferenceIdeal.S2x1600000, .i32⟩ : BufTy).Contents (Elt Ideal)) (h : ∀ i, InRange (x1 i)) (e : Cert.KernelIdeal.S1600000.Idx) : InRange (dstOf x1 e) := by
  unfold dstOf shapeCast extractStridedSlice; exact h _

/-! ## The reference's gather and scatter chains are the kernel program's, with gathers for takes -/

theorem mean1_fold (x0 : (⟨Cert.ReferenceIdeal.S100000x64, .f32⟩ : BufTy).Contents (Elt Ideal)) (x1 : (⟨Cert.ReferenceIdeal.S2x1600000, .i32⟩ : BufTy).Contents (Elt Ideal)) :
    val_main_v22 (F := Ideal) x0 x1
      = mean64 (F := Ideal) (Host.gather Cert.KernelIdeal.gather_S100000x64_S1600000x1_S1600000x64_1_0_n_n_0_1_164 x0 (col (srcOf x1))) (dstOf x1) := rfl
theorem mean2_fold (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    val_main_v50 (F := Ideal) x0 x1 x2 x3 x4
      = mean128 (F := Ideal) (Host.gather Cert.KernelIdeal.gather_S100000x128_S1600000x1_S1600000x128_1_0_n_n_0_1_1128 (val_main_v31 (F := Ideal) x0 x1 x2 x3 x4) (col (srcOf x1))) (dstOf x1) := rfl
theorem edges_fold (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) :
    val_main_v74 (F := Ideal) x0 x1 x2 x3 x4 x5 x6 x7
      = edgeFeatures (F := Ideal)
          (Host.gather Cert.KernelIdeal.gather_S100000x64_S1600000x1_S1600000x64_1_0_n_n_0_1_164 (val_main_v59 (F := Ideal) x0 x1 x2 x3 x4 x5 x6 x7) (col (srcOf x1)))
          (Host.gather Cert.KernelIdeal.gather_S100000x64_S1600000x1_S1600000x64_1_0_n_n_0_1_164 (val_main_v59 (F := Ideal) x0 x1 x2 x3 x4 x5 x6 x7) (col (dstOf x1))) := rfl

/-! ## The biases as rows -/

theorem bias1_ref (x3 : (⟨Cert.ReferenceIdeal.S128, .f32⟩ : BufTy).Contents (Elt Ideal)) : val_main_v25 (F := Ideal) x3 = row128 (F := Ideal) x3 := row_eq (by decide) x3 _ _
theorem bias2_ref (x6 : (⟨Cert.ReferenceIdeal.S64, .f32⟩ : BufTy).Contents (Elt Ideal)) : val_main_v53 (F := Ideal) x6 = row64 (F := Ideal) x6 := row_eq (by decide) x6 _ _
theorem biasC1_ref (x9 : (⟨Cert.ReferenceIdeal.S64, .f32⟩ : BufTy).Contents (Elt Ideal)) : val_main_v77 (F := Ideal) x9 = row64 (F := Ideal) x9 := row_eq (by decide) x9 _ _
theorem biasC2_ref (x11 : (⟨Cert.ReferenceIdeal.S2, .f32⟩ : BufTy).Contents (Elt Ideal)) : val_main_v83 (F := Ideal) x11 = row2 (F := Ideal) x11 := row_eq (by decide) x11 _ _

/-! ## Layer by layer -/

theorem layerOne_ref (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (h : ∀ i, InRange (x1 i)) :
    val_main_v31 (F := Ideal) x0 x1 x2 x3 x4 = layerOne x0 x1 x2 x3 x4 := by
  unfold layerOne
  rw [Cert.ReferenceIdeal.RefStages.sage1_eq, mean1_fold, bias1_ref, take64_eq (F := Ideal) x0 (srcOf x1) (src_inRange x1 h)]

theorem layerTwo_ref (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (h : ∀ i, InRange (x1 i)) :
    val_main_v59 (F := Ideal) x0 x1 x2 x3 x4 x5 x6 x7 = layerTwo x0 x1 x2 x3 x4 x5 x6 x7 := by
  unfold layerTwo
  rw [Cert.ReferenceIdeal.RefStages.sage2_eq, mean2_fold, bias2_ref, layerOne_ref x0 x1 x2 x3 x4 h,
    take128_eq (F := Ideal) (layerOne x0 x1 x2 x3 x4) (srcOf x1) (src_inRange x1 h)]

/-- The reference's result is the kernel program's value. -/
theorem classify_ref (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S128x64, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64x128, .f32⟩ : BufTy).Contents (Elt Ideal)) (x6 : (⟨Cert.ReferenceIdeal.S64, .f32⟩ : BufTy).Contents (Elt Ideal)) (x7 : (⟨Cert.ReferenceIdeal.S64x128, .f32⟩ : BufTy).Contents (Elt Ideal)) (x8 : (⟨Cert.ReferenceIdeal.S64x128, .f32⟩ : BufTy).Contents (Elt Ideal)) (x9 : (⟨Cert.ReferenceIdeal.S64, .f32⟩ : BufTy).Contents (Elt Ideal)) (x10 : (⟨Cert.ReferenceIdeal.S2x64, .f32⟩ : BufTy).Contents (Elt Ideal)) (x11 : (⟨Cert.ReferenceIdeal.S2, .f32⟩ : BufTy).Contents (Elt Ideal)) (h : ∀ i, InRange (x1 i)) :
    val_main_v85 (F := Ideal) x0 x1 x2 x3 x4 x5 x6 x7 x8 x9 x10 x11 = classify x0 x1 x2 x3 x4 x5 x6 x7 x8 x9 x10 x11 := by
  unfold classify
  rw [Cert.ReferenceIdeal.RefStages.mlp_eq, edges_fold, biasC1_ref, biasC2_ref, layerTwo_ref x0 x1 x2 x3 x4 x5 x6 x7 h,
    take64_eq (F := Ideal) (layerTwo x0 x1 x2 x3 x4 x5 x6 x7) (srcOf x1) (src_inRange x1 h),
    take64_eq (F := Ideal) (layerTwo x0 x1 x2 x3 x4 x5 x6 x7) (dstOf x1) (dst_inRange x1 h)]

end Cert.Bridge

end
-- ==== Proof.PreRange.lean ====
/-
  What the precondition says of the edge list: it is a conjunction whose last two conjuncts are
  "every entry of edge_index is ≥ 0" and "every entry is < 100000", each an all-reduction of a comparison.
  A conjunction that is true has true conjuncts, and an all-reduction that is true had a true comparison
  at every entry: so every entry of edge_index is a node id in [0, 100000).
-/
import proofs.«416496_j25366076850454_1_alg».proof.Pre_finite_inputs
import proofs.«416496_j25366076850454_1_alg».proof.Proof.TakeMask
import Idealize.ShloMosaic.Lib.ReduceAll
import Idealize.ShloMosaic.Lib.ValueIdx

noncomputable section

namespace Cert.PreRange

open Idealize.ShloMosaic Cert.Pre_finite_inputs

variable [Cert.Pre_finite_inputs.Facts] {F : FTy → Type} [FloatOps F]

/-- The shape of a scalar has one index. -/
instance : Subsingleton S_.Idx := ⟨fun _ _ => funext fun d => d.elim0⟩

/-- The last part of the predicate is true only if every entry of the edge list is a node id. -/
theorem part3_inRange (a1 : IVec S2x1600000 32) (v48 : IVec S_ 1) (v49 v50 : FVec F S2 .f32)
    (h : fn_part3 (F := F) a1 v48 v49 v50 ValueIdx.ix0 = 1#1) (i : S2x1600000.Idx) : Cert.TakeMask.InRange (a1 i) := by
  unfold fn_part3 at h
  dsimp only at h
  obtain ⟨h1, hlt⟩ := IntOp.andi_eq_one.1 h
  obtain ⟨_, hge⟩ := IntOp.andi_eq_one.1 h1
  exact ⟨Host.reduce_andi_all _ _ _ _ _ hge i, Host.reduce_andi_all _ _ _ _ _ hlt i⟩

/-- The whole predicate is true only if every entry of the edge list is a node id. -/
theorem inRange_of_fn (a0 : FVec F S100000x64 .f32) (a1 : IVec S2x1600000 32) (a2 : FVec F S128x64 .f32) (a3 : FVec F S128 .f32)
    (a4 : FVec F S128x64 .f32) (a5 : FVec F S64x128 .f32) (a6 : FVec F S64 .f32) (a7 : FVec F S64x128 .f32)
    (a8 : FVec F S64x128 .f32) (a9 : FVec F S64 .f32) (a10 : FVec F S2x64 .f32) (a11 : FVec F S2 .f32)
    (h : fn (F := F) a0 a1 a2 a3 a4 a5 a6 a7 a8 a9 a10 a11 = fun _ => 1#1) (i : S2x1600000.Idx) :
    Cert.TakeMask.InRange (a1 i) := by
  have e := congrFun h ValueIdx.ix0
  unfold fn fn_part1 fn_part2 at e
  exact part3_inRange a1 _ _ _ e i

end Cert.PreRange

end
-- ==== Proof.lean ====
/-
  A two-layer GraphSAGE with an edge classifier, as a TPU program of three dense kernels among host operations,
  against its array-language reference, over the extended reals.

  Both programs take node features, an edge list and the layers' weights. Each SAGE layer gathers the features of the
  edges' source nodes, sums them into the destination nodes and divides by the nodes' edge counts (at least 1), then
  forms relu (mean · Wlᵀ + x · Wrᵀ + b); the classifier joins each edge's two endpoint features and forms
  relu (e · W₁ᵀ + b₁) · W₂ᵀ + b₂. The kernel program does the three dense stages in row-blocked kernels and the
  irregular gathers and sums on the host, its gathers as takes that fill a row whose id is out of range; the reference
  gathers plainly, clamping such an id. Where every entry of the edge list is a node id (0 ≤ id < 100000: the
  precondition's last two conjuncts) no row is filled and none is clamped, and the two programs compute one function:
  the sums (mean·Wlᵀ + x·Wrᵀ) + b and (mean·Wlᵀ + b) + x·Wrᵀ agree because addition of extended reals is commutative
  and associative, so no finiteness is used.

  The frames of the two kernel programs and the reference's run are generated; the kernel program's run is taken again
  with its result buffer named; each region's output array is read as the whole-array function of its inputs; the host
  stretches between them are followed buffer by buffer; and the reference's stages are read at an index.
-/
import proofs.«416496_j25366076850454_1_alg».proof.Defs
import proofs.«416496_j25366076850454_1_alg».proof.Proof.Gen.Kernel
import proofs.«416496_j25366076850454_1_alg».proof.Proof.Gen.Kernel.Skeleton
import proofs.«416496_j25366076850454_1_alg».proof.Proof.Gen.Kernel.Launch
import proofs.«416496_j25366076850454_1_alg».proof.Proof.Gen.Kernel.Points
import proofs.«416496_j25366076850454_1_alg».proof.Proof.Gen.Kernel.Frame
import proofs.«416496_j25366076850454_1_alg».proof.Proof.Gen.KernelIdeal
import proofs.«416496_j25366076850454_1_alg».proof.Proof.Gen.KernelIdeal.Skeleton
import proofs.«416496_j25366076850454_1_alg».proof.Proof.Gen.KernelIdeal.Launch
import proofs.«416496_j25366076850454_1_alg».proof.Proof.Gen.KernelIdeal.Points
import proofs.«416496_j25366076850454_1_alg».proof.Proof.Gen.KernelIdeal.Frame
import proofs.«416496_j25366076850454_1_alg».proof.Proof.Gen.ReferenceIdeal
import proofs.«416496_j25366076850454_1_alg».proof.Proof.Gen.ReferenceIdeal.Run
import proofs.«416496_j25366076850454_1_alg».proof.Proof.Gen.ReferenceIdeal.Read
import proofs.«416496_j25366076850454_1_alg».proof.Proof.Gen.Pre_finite_inputs
import proofs.«416496_j25366076850454_1_alg».proof.Proof.NamedRun
import proofs.«416496_j25366076850454_1_alg».proof.Proof.KernelValue
import proofs.«416496_j25366076850454_1_alg».proof.Proof.Bridge
import proofs.«416496_j25366076850454_1_alg».proof.Proof.PreRange
import Idealize.ShloMosaic.Adequacy
import Idealize.ShloMosaic.Init

noncomputable section

namespace Cert.Proof

open Idealize.ShloMosaic Idealize.SL.Sem

/-- The word-level kernel program runs, and its arguments end as launched. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's value, in the terms the reference is compared with, is the value its run ends at. -/
theorem result_eq_classify (m : (ℓ : Loc Cert.KernelIdeal.nD Cert.KernelIdeal.τ Cert.KernelIdeal.sig) → Buf (Elt Ideal) ℓ)
    (c : Dev Cert.KernelIdeal.nD) :
    Cert.Bridge.classify (Cert.KernelIdeal.Value.a0 m c) (Cert.KernelIdeal.Value.a1 m c) (Cert.KernelIdeal.Value.a2 m c)
      (Cert.KernelIdeal.Value.a3 m c) (Cert.KernelIdeal.Value.a4 m c) (Cert.KernelIdeal.Value.a5 m c) (Cert.KernelIdeal.Value.a6 m c)
      (Cert.KernelIdeal.Value.a7 m c) (Cert.KernelIdeal.Value.a8 m c) (Cert.KernelIdeal.Value.a9 m c) (Cert.KernelIdeal.Value.a10 m c)
      (Cert.KernelIdeal.Value.a11 m c) = Cert.KernelIdeal.Value.result m c := rfl

/-- From memories agreeing on the arguments, with node ids in the edge list, both programs end at one result. -/
theorem algebraic : Cert.algebraic_KernelIdeal_ReferenceIdeal := by
  intro m ρ m' ρ' hpre hagree
  refine ⟨fun c => Cert.KernelIdeal.Value.result m c, ?_, ?_⟩
  · exact (θ_run Cert.KernelIdeal.defs _ _).mono
      (fun r h c => ⟨(h c).1.trans (Cert.KernelIdeal.Value.kernel_value m ρ c), (h c).2⟩)
      (Cert.KernelIdeal.NamedRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v85_eq, h0, h1, h2, h3, h4, h5, h6, h7, h8, h9, h10, h11]
    refine (Cert.Bridge.classify_ref _ _ _ _ _ _ _ _ _ _ _ _ fun i => ?_).trans (result_eq_classify m c)
    exact Cert.PreRange.inRange_of_fn _ _ _ _ _ _ _ _ _ _ _ _ (hpre c) i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
